-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x768 : Shape := ⟨2, ![256, 768]⟩
abbrev S16x256x64x256 : Shape := ⟨4, ![16, 256, 64, 256]⟩
abbrev S16x256x7 : Shape := ⟨3, ![16, 256, 7]⟩
abbrev S256x64x256 : Shape := ⟨3, ![256, 64, 256]⟩
abbrev S768x256 : Shape := ⟨2, ![768, 256]⟩
abbrev S256 : Shape := ⟨1, ![256]⟩
abbrev S7x256 : Shape := ⟨2, ![7, 256]⟩
abbrev S256x256 : Shape := ⟨2, ![256, 256]⟩
abbrev S_ : Shape := ⟨0, ![]⟩

class Facts : Prop where
  bcast_S_S256x768 : S_.BroadcastsInDim S256x768 (![] : Fin 0 → Fin S256x768.rank)
  reducesTo_S256x768_S_d0_1 : S256x768.ReducesTo [0, 1] S_
  h_S_ : 0 < S_.numel
  bcast_S_S16x256x64x256 : S_.BroadcastsInDim S16x256x64x256 (![] : Fin 0 → Fin S16x256x64x256.rank)
  reducesTo_S16x256x64x256_S_d0_1_2_3 : S16x256x64x256.ReducesTo [0, 1, 2, 3] S_
  bcast_S_S16x256x7 : S_.BroadcastsInDim S16x256x7 (![] : Fin 0 → Fin S16x256x7.rank)
  reducesTo_S16x256x7_S_d0_1_2 : S16x256x7.ReducesTo [0, 1, 2] S_
  bcast_S_S256x64x256 : S_.BroadcastsInDim S256x64x256 (![] : Fin 0 → Fin S256x64x256.rank)
  reducesTo_S256x64x256_S_d0_1_2 : S256x64x256.ReducesTo [0, 1, 2] S_
  bcast_S_S768x256 : S_.BroadcastsInDim S768x256 (![] : Fin 0 → Fin S768x256.rank)
  reducesTo_S768x256_S_d0_1 : S768x256.ReducesTo [0, 1] S_
  bcast_S_S256 : S_.BroadcastsInDim S256 (![] : Fin 0 → Fin S256.rank)
  reducesTo_S256_S_d0 : S256.ReducesTo [0] S_
  bcast_S_S7x256 : S_.BroadcastsInDim S7x256 (![] : Fin 0 → Fin S7x256.rank)
  reducesTo_S7x256_S_d0_1 : S7x256.ReducesTo [0, 1] S_
  bcast_S_S256x256 : S_.BroadcastsInDim S256x256 (![] : Fin 0 → Fin S256x256.rank)
  reducesTo_S256x256_S_d0_1 : S256x256.ReducesTo [0, 1] S_

variable [Facts]

def fn_part2 {F : FTy → Type} [FloatOps F] (main_arg7 : FVec F S256 .f32) (main_arg8 : FVec F S256x256 .f32) (main_arg9 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  main_v48

def fn_part1 {F : FTy → Type} [FloatOps F] (main_arg4 : FVec F S768x256 .f32) (main_arg5 : FVec F S256 .f32) (main_arg6 : FVec F S7x256 .f32) (main_arg7 : FVec F S256 .f32) (main_arg8 : FVec F S256x256 .f32) (main_arg9 : FVec F S256 .f32) (main_v13 : IVec S_ 1) (main_v16 : IVec S256x64x256 1) : IVec S_ 1 :=
  let main_c_5 : IVec S_ 1 := constantI S_ 1 1#1
  let main_v17 : IVec S_ 1 := (fun x v => Host.reduce IntOp.andi x v reducesTo_S256x64x256_S_d0_1_2 h_S_) main_v16 main_c_5
  let main_v18 : IVec S_ 1 := andi main_v13 main_v17
  let main_v19 : FVec F S768x256 .f32 := Host.absf main_arg4
  let main_cst_6 : FVec F S_ .f32 := constant S_ .f32 0x7F800000#32
  let main_v20 : FVec F S768x256 .f32 := broadcastInDim S768x256 ![] bcast_S_S768x256 main_cst_6
  let main_v21 : IVec S768x256 1 := cmpf .olt main_v19 main_v20
  let main_c_7 : IVec S_ 1 := constantI S_ 1 1#1
  let main_v22 : IVec S_ 1 := (fun x v => Host.reduce IntOp.andi x v reducesTo_S768x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S7x256 .f32 := Host.absf main_arg6
  let main_cst_10 : FVec F S_ .f32 := constant S_ .f32 0x7F800000#32
  let main_v30 : FVec F S7x256 .f32 := broadcastInDim S7x256 ![] bcast_S_S7x256 main_cst_10
  let main_v31 : IVec S7x256 1 := cmpf .olt main_v29 main_v30
  let main_c_11 : IVec S_ 1 := constantI S_ 1 1#1
  let main_v32 : IVec S_ 1 := (fun x v => Host.reduce IntOp.andi x v reducesTo_S7x256_S_d0_1 h_S_) main_v31 main_c_11
  let main_v33 : IVec S_ 1 := andi main_v28 main_v32
  fn_part2 (F := F) main_arg7 main_arg8 main_arg9 main_v33

def fn {F : FTy → Type} [FloatOps F] (main_arg0 : FVec F S256x768 .f32) (main_arg1 : FVec F S16x256x64x256 .f32) (main_arg2 : FVec F S16x256x7 .f32) (main_arg3 : FVec F S256x64x256 .f32) (main_arg4 : FVec F S768x256 .f32) (main_arg5 : FVec F S256 .f32) (main_arg6 : FVec F S7x256 .f32) (main_arg7 : FVec F S256 .f32) (main_arg8 : FVec F S256x256 .f32) (main_arg9 : FVec F S256 .f32) : IVec S_ 1 :=
  let main_v0 : FVec F S256x768 .f32 := Host.absf main_arg0
  let main_cst : FVec F S_ .f32 := constant S_ .f32 0x7F800000#32
  let main_v1 : FVec F S256x768 .f32 := broadcastInDim S256x768 ![] bcast_S_S256x768 main_cst
  let main_v2 : IVec S256x768 1 := cmpf .olt main_v0 main_v1
  let main_c : IVec S_ 1 := constantI S_ 1 1#1
  let main_v3 : IVec S_ 1 := (fun x v => Host.reduce IntOp.andi x v reducesTo_S256x768_S_d0_1 h_S_) main_v2 main_c
  let main_v4 : FVec F S16x256x64x256 .f32 := Host.absf main_arg1
  let main_cst_0 : FVec F S_ .f32 := constant S_ .f32 0x7F800000#32
  let main_v5 : FVec F S16x256x64x256 .f32 := broadcastInDim S16x256x64x256 ![] bcast_S_S16x256x64x256 main_cst_0
  let main_v6 : IVec S16x256x64x256 1 := cmpf .olt main_v4 main_v5
  let main_c_1 : IVec S_ 1 := constantI S_ 1 1#1
  let main_v7 : IVec S_ 1 := (fun x v => Host.reduce IntOp.andi x v reducesTo_S16x256x64x256_S_d0_1_2_3 h_S_) main_v6 main_c_1
  let main_v8 : IVec S_ 1 := andi main_v3 main_v7
  let main_v9 : FVec F S16x256x7 .f32 := Host.absf main_arg2
  let main_cst_2 : FVec F S_ .f32 := constant S_ .f32 0x7F800000#32
  let main_v10 : FVec F S16x256x7 .f32 := broadcastInDim S16x256x7 ![] bcast_S_S16x256x7 main_cst_2
  let main_v11 : IVec S16x256x7 1 := cmpf .olt main_v9 main_v10
  let main_c_3 : IVec S_ 1 := constantI S_ 1 1#1
  let main_v12 : IVec S_ 1 := (fun x v => Host.reduce IntOp.andi x v reducesTo_S16x256x7_S_d0_1_2 h_S_) main_v11 main_c_3
  let main_v13 : IVec S_ 1 := andi main_v8 main_v12
  let main_v14 : FVec F S256x64x256 .f32 := Host.absf main_arg3
  let main_cst_4 : FVec F S_ .f32 := constant S_ .f32 0x7F800000#32
  let main_v15 : FVec F S256x64x256 .f32 := broadcastInDim S256x64x256 ![] bcast_S_S256x64x256 main_cst_4
  let main_v16 : IVec S256x64x256 1 := cmpf .olt main_v14 main_v15
  fn_part1 (F := F) main_arg4 main_arg5 main_arg6 main_arg7 main_arg8 main_arg9 main_v13 main_v16
-- ==== Kernel.lean ====
abbrev S256x768 : Shape := ⟨2, ![256, 768]⟩
abbrev S16x256x64x256 : Shape := ⟨4, ![16, 256, 64, 256]⟩
abbrev S16x256x7 : Shape := ⟨3, ![16, 256, 7]⟩
abbrev S256x64x256 : Shape := ⟨3, ![256, 64, 256]⟩
abbrev S768x256 : Shape := ⟨2, ![768, 256]⟩
abbrev S256 : Shape := ⟨1, ![256]⟩
abbrev S7x256 : Shape := ⟨2, ![7, 256]⟩
abbrev S256x256 : Shape := ⟨2, ![256, 256]⟩
abbrev S1x256 : Shape := ⟨2, ![1, 256]⟩
abbrev S262144x256 : Shape := ⟨2, ![262144, 256]⟩
abbrev S16384x256 : Shape := ⟨2, ![16384, 256]⟩
abbrev S278528x256 : Shape := ⟨2, ![278528, 256]⟩
abbrev S4096x256 : Shape := ⟨2, ![4096, 256]⟩
abbrev S4096x7 : Shape := ⟨2, ![4096, 7]⟩
abbrev S16x256x256 : Shape := ⟨3, ![16, 256, 256]⟩
abbrev S16x256x1x256 : Shape := ⟨4, ![16, 256, 1, 256]⟩
abbrev S16x256x65x256 : Shape := ⟨4, ![16, 256, 65, 256]⟩
abbrev S256x16x65x256 : Shape := ⟨4, ![256, 16, 65, 256]⟩
abbrev S256x1040x256 : Shape := ⟨3, ![256, 1040, 256]⟩
abbrev S256x1x256 : Shape := ⟨3, ![256, 1, 256]⟩
abbrev S256x1105x256 : Shape := ⟨3, ![256, 1105, 256]⟩

abbrev nBuf : Space → Nat
  | .hbm => 31
  | .vmem => 14
  | .smem => 0
  | _ => 0

abbrev bufTy : (tb : Table) → Fin (tcTables nBuf tb) → BufTy
  | .hbm, ⟨0, _⟩ => ⟨S256x768, .f32⟩
  | .hbm, ⟨1, _⟩ => ⟨S16x256x64x256, .f32⟩
  | .hbm, ⟨2, _⟩ => ⟨S16x256x7, .f32⟩
  | .hbm, ⟨3, _⟩ => ⟨S256x64x256, .f32⟩
  | .hbm, ⟨4, _⟩ => ⟨S768x256, .f32⟩
  | .hbm, ⟨5, _⟩ => ⟨S256, .f32⟩
  | .hbm, ⟨6, _⟩ => ⟨S7x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S1x256, .f32⟩
  | .hbm, ⟨11, _⟩ => ⟨S256x256, .f32⟩
  | .hbm, ⟨12, _⟩ => ⟨S262144x256, .f32⟩
  | .hbm, ⟨13, _⟩ => ⟨S16384x256, .f32⟩
  | .hbm, ⟨14, _⟩ => ⟨S278528x256, .f32⟩
  | .hbm, ⟨15, _⟩ => ⟨S1x256, .f32⟩
  | .hbm, ⟨16, _⟩ => ⟨S278528x256, .f32⟩
  | .hbm, ⟨17, _⟩ => ⟨S262144x256, .f32⟩
  | .hbm, ⟨18, _⟩ => ⟨S16x256x64x256, .f32⟩
  | .hbm, ⟨19, _⟩ => ⟨S16384x256, .f32⟩
  | .hbm, ⟨20, _⟩ => ⟨S256x64x256, .f32⟩
  | .hbm, ⟨21, _⟩ => ⟨S4096x7, .f32⟩
  | .hbm, ⟨22, _⟩ => ⟨S1x256, .f32⟩
  | .hbm, ⟨23, _⟩ => ⟨S4096x256, .f32⟩
  | .hbm, ⟨24, _⟩ => ⟨S16x256x256, .f32⟩
  | .hbm, ⟨25, _⟩ => ⟨S16x256x1x256, .f32⟩
  | .hbm, ⟨26, _⟩ => ⟨S16x256x65x256, .f32⟩
  | .hbm, ⟨27, _⟩ => ⟨S256x16x65x256, .f32⟩
  | .hbm, ⟨28, _⟩ => ⟨S256x1040x256, .f32⟩
  | .hbm, ⟨29, _⟩ => ⟨S256x1x256, .f32⟩
  | .hbm, ⟨30, _⟩ => ⟨S256x1105x256, .f32⟩
  | .local _ .vmem, ⟨0, _⟩ => ⟨S256x768, .f32⟩
  | .local _ .vmem, ⟨1, _⟩ => ⟨S768x256, .f32⟩
  | .local _ .vmem, ⟨2, _⟩ => ⟨S1x256, .f32⟩
  | .local _ .vmem, ⟨3, _⟩ => ⟨S256x256, .f32⟩
  | .local _ .vmem, ⟨4, _⟩ => ⟨S4096x256, .f32⟩
  | .local _ .vmem, ⟨5, _⟩ => ⟨S4096x256, .f32⟩
  | .local _ .vmem, ⟨6, _⟩ => ⟨S256x256, .f32⟩
  | .local _ .vmem, ⟨7, _⟩ => ⟨S1x256, .f32⟩
  | .local _ .vmem, ⟨8, _⟩ => ⟨S4096x256, .f32⟩
  | .local _ .vmem, ⟨9, _⟩ => ⟨S4096x256, .f32⟩
  | .local _ .vmem, ⟨10, _⟩ => ⟨S4096x7, .f32⟩
  | .local _ .vmem, ⟨11, _⟩ => ⟨S7x256, .f32⟩
  | .local _ .vmem, ⟨12, _⟩ => ⟨S1x256, .f32⟩
  | .local _ .vmem, ⟨13, _⟩ => ⟨S4096x256, .f32⟩
  | _, _ => ⟨S256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9
abbrev cc2_sem0_0 : DmaSem sig := 10
abbrev cc2_sem1_0 : DmaSem sig := 11
abbrev cc2_sem2_0 : DmaSem sig := 12
abbrev cc2_sem3_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S768x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev grid1 : Pipeline.Grid := ⟨1, ![68], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S4096x7 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S7x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S4096x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true]

class Facts₀ : Prop where
  shapeCasts_S256_S1x256 : S256.ShapeCasts S1x256
  inb_S256x768_S256x768_0_0 : ∀ a, (![0, 0] : Fin 2 → Nat) a + S256x768.size a ≤ S256x768.size a
  h_S256x768 : 0 < S256x768.numel
  bitsLt_bf16_f32 : FTy.bits .bf16 < FTy.bits .f32
  inb_S768x256_S768x256_0_0 : ∀ a, (![0, 0] : Fin 2 → Nat) a + S768x256.size a ≤ S768x256.size a
  h_S768x256 : 0 < S768x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x256_S256x256_0_0 : ∀ a, (![0, 0] : Fin 2 → Nat) a + S256x256.size a ≤ S256x256.size a
  h_S256x256 : 0 < S256x256.numel
  shapeCasts_S16x256x64x256_S262144x256 : S16x256x64x256.ShapeCasts S262144x256
  shapeCasts_S256x64x256_S16384x256 : S256x64x256.ShapeCasts S16384x256
  concatenates_S262144x256_S16384x256_S278528x256_d0 : Shape.Concatenates [S262144x256, S16384x256] S278528x256 0
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  broadcasts_S1x256_S4096x256 : S1x256.Broadcasts S4096x256
  slices_S278528x256_S262144x256_0_0 : S278528x256.Slices ![0, 0] S262144x256
  shapeCasts_S262144x256_S16x256x64x256 : S262144x256.ShapeCasts S16x256x64x256
  slices_S278528x256_S16384x256_262144_0 : S278528x256.Slices ![262144, 0] S16384x256
  shapeCasts_S16384x256_S256x64x256 : S16384x256.ShapeCasts S256x64x256
  shapeCasts_S16x256x7_S4096x7 : S16x256x7.ShapeCasts S4096x7
  inb_S4096x7_S4096x7_0_0 : ∀ a, (![0, 0] : Fin 2 → Nat) a + S4096x7.size a ≤ S4096x7.size a
  h_S4096x7 : 0 < S4096x7.numel
  shapeCasts_S4096x7_S4096x7 : S4096x7.ShapeCasts S4096x7
  inb_S7x256_S7x256_0_0 : ∀ a, (![0, 0] : Fin 2 → Nat) a + S7x256.size a ≤ S7x256.size a
  h_S7x256 : 0 < S7x256.numel
  shapeCasts_S4096x256_S16x256x256 : S4096x256.ShapeCasts S16x256x256
  bcast_S16x256x256_S16x256x1x256_0_1_3 : S16x256x256.BroadcastsInDim S16x256x1x256 (![0, 1, 3] : Fin 3 → Fin S16x256x1x256.rank)
  concatenates_S16x256x64x256_S16x256x1x256_S16x256x65x256_d2 : Shape.Concatenates [S16x256x64x256, S16x256x1x256] S16x256x65x256 2
  transposes_S16x256x65x256_S256x16x65x256_1_0_2_3 : S16x256x65x256.Transposes [1, 0, 2, 3] S256x16x65x256
  shapeCasts_S256x16x65x256_S256x1040x256 : S256x16x65x256.ShapeCasts S256x1040x256
  bcast_S256x256_S256x1x256_0_2 : S256x256.BroadcastsInDim S256x1x256 (![0, 2] : Fin 2 → Fin S256x1x256.rank)
  concatenates_S256x1x256_S256x1040x256_S256x64x256_S256x1105x256_d1 : Shape.Concatenates [S256x1x256, S256x1040x256, S256x64x256] S256x1105x256 1
  dot_S256x768_S768x256_S256x256_1_0_0_1_n_n_wf : DotDims.WF S256x768 S768x256 S256x256 [1] [0] [0] [1] [] []
  dot_S4096x256_S256x256_S4096x256_1_0_0_1_n_n_wf : DotDims.WF S4096x256 S256x256 S4096x256 [1] [0] [0] [1] [] []
  dot_S4096x7_S7x256_S4096x256_1_0_0_1_n_n_wf : DotDims.WF S4096x7 S7x256 S4096x256 [1] [0] [0] [1] [] []
  hrank0 : 0 < grid0.rank
  hstage0_0 : ∀ j, (stage0_0 j).IsWhole
  nbuf0_0 : grid0.bufCount reads0_0 false = 1
  hreads0_0 : ∀ i i' : grid0.Coords, (∀ a, reads0_0 a = true → i a = i' a) → cc0_transform_0 i = cc0_transform_0 i'
  hinb0_0 : ∀ (i : grid0.Coords) a, (cc0_transform_0 i a + 1) * S256x768.size a ≤ S256x768.size a
  hwx0_0 : ∀ i : grid0.Coords, EltTy.bits .f32 = 32 ∨ (Rect.block (s := S256x768) S256x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x256.size a ≤ S768x256.size a
  hwx0_1 : ∀ i : grid0.Coords, EltTy.bits .f32 = 32 ∨ (Rect.block (s := S768x256) S768x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x256.size a ≤ S278528x256.size a
  hwx1_0 : ∀ i : grid1.Coords, EltTy.bits .f32 = 32 ∨ (Rect.block (s := S278528x256) S4096x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x256.size a ≤ S278528x256.size a
  hwx1_3 : ∀ i : grid1.Coords, EltTy.bits .f32 = 32 ∨ (Rect.block (s := S278528x256) S4096x256.size (cc1_transform_3 i) (hinb1_3 i)).WholeWords (EltTy.packing .f32)
  hrank2 : 0 < grid2.rank
  hstage2_0 : ∀ j, (stage2_0 j).IsWhole
  nbuf2_0 : grid2.bufCount reads2_0 false = 1
  hreads2_0 : ∀ i i' : grid2.Coords, (∀ a, reads2_0 a = true → i a = i' a) → cc2_transform_0 i = cc2_transform_0 i'
  hinb2_0 : ∀ (i : grid2.Coords) a, (cc2_transform_0 i a + 1) * S4096x7.size a ≤ S4096x7.size a
  hwx2_0 : ∀ i : grid2.Coords, EltTy.bits .f32 = 32 ∨ (Rect.block (s := S4096x7) S4096x7.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S7x256.size a ≤ S7x256.size a
  hwx2_1 : ∀ i : grid2.Coords, EltTy.bits .f32 = 32 ∨ (Rect.block (s := S7x256) S7x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 1
  hreads2_3 : ∀ i i' : grid2.Coords, (∀ a, reads2_3 a = true → i a = i' a) → cc2_transform_3 i = cc2_transform_3 i'
  hinb2_3 : ∀ (i : grid2.Coords) a, (cc2_transform_3 i a + 1) * S4096x256.size a ≤ S4096x256.size a
  hwx2_3 : ∀ i : grid2.Coords, EltTy.bits .f32 = 32 ∨ (Rect.block (s := S4096x256) S4096x256.size (cc2_transform_3 i) (hinb2_3 i)).WholeWords (EltTy.packing .f32)

variable [Facts₀]

def dot_S256x768_S768x256_S256x256_1_0_0_1_n_n : DotDims S256x768 S768x256 S256x256 where
  lhsContracting := [1]
  rhsContracting := [0]
  lhsNonContracting := [0]
  rhsNonContracting := [1]
  lhsBatch := []
  rhsBatch := []
  wf := dot_S256x768_S768x256_S256x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x7_S7x256_S4096x256_1_0_0_1_n_n : DotDims S4096x7 S7x256 S4096x256 where
  lhsContracting := [1]
  rhsContracting := [0]
  lhsNonContracting := [0]
  rhsNonContracting := [1]
  lhsBatch := []
  rhsBatch := []
  wf := dot_S4096x7_S7x256_S4096x256_1_0_0_1_n_n_wf

abbrev win0_0 : Pipeline.Window sig grid0 :=
  Pipeline.Window.ofSpec (Memref.whole main_arg0) S256x768.size cc0_transform_0 reads0_0 false false 1 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S768x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x256.size cc0_transform_3 reads0_3 true false 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S4096x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S4096x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v11) S4096x7.size cc2_transform_0 reads2_0 false false 1 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S7x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v12) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v13) S4096x256.size cc2_transform_3 reads2_3 true false 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S256x768 : Shape := ⟨2, ![256, 768]⟩
abbrev S16x256x64x256 : Shape := ⟨4, ![16, 256, 64, 256]⟩
abbrev S16x256x7 : Shape := ⟨3, ![16, 256, 7]⟩
abbrev S256x64x256 : Shape := ⟨3, ![256, 64, 256]⟩
abbrev S768x256 : Shape := ⟨2, ![768, 256]⟩
abbrev S256 : Shape := ⟨1, ![256]⟩
abbrev S7x256 : Shape := ⟨2, ![7, 256]⟩
abbrev S256x256 : Shape := ⟨2, ![256, 256]⟩
abbrev S1x256 : Shape := ⟨2, ![1, 256]⟩
abbrev S1x1x1x256 : Shape := ⟨4, ![1, 1, 1, 256]⟩
abbrev S16x256x256 : Shape := ⟨3, ![16, 256, 256]⟩
abbrev S1x1x256 : Shape := ⟨3, ![1, 1, 256]⟩
abbrev S16x256x1x256 : Shape := ⟨4, ![16, 256, 1, 256]⟩
abbrev S16x256x65x256 : Shape := ⟨4, ![16, 256, 65, 256]⟩
abbrev S256x16x65x256 : Shape := ⟨4, ![256, 16, 65, 256]⟩
abbrev S256x1040x256 : Shape := ⟨3, ![256, 1040, 256]⟩
abbrev S256x1x256 : Shape := ⟨3, ![256, 1, 256]⟩
abbrev S256x1105x256 : Shape := ⟨3, ![256, 1105, 256]⟩

abbrev nBuf : Space → Nat
  | .hbm => 32
  | .vmem => 0
  | .smem => 0
  | _ => 0

abbrev bufTy : (tb : Table) → Fin (tcTables nBuf tb) → BufTy
  | .hbm, ⟨0, _⟩ => ⟨S256x768, .f32⟩
  | .hbm, ⟨1, _⟩ => ⟨S16x256x64x256, .f32⟩
  | .hbm, ⟨2, _⟩ => ⟨S16x256x7, .f32⟩
  | .hbm, ⟨3, _⟩ => ⟨S256x64x256, .f32⟩
  | .hbm, ⟨4, _⟩ => ⟨S768x256, .f32⟩
  | .hbm, ⟨5, _⟩ => ⟨S256, .f32⟩
  | .hbm, ⟨6, _⟩ => ⟨S7x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S1x256, .f32⟩
  | .hbm, ⟨12, _⟩ => ⟨S256x256, .f32⟩
  | .hbm, ⟨13, _⟩ => ⟨S256x256, .f32⟩
  | .hbm, ⟨14, _⟩ => ⟨S16x256x64x256, .f32⟩
  | .hbm, ⟨15, _⟩ => ⟨S1x1x1x256, .f32⟩
  | .hbm, ⟨16, _⟩ => ⟨S16x256x64x256, .f32⟩
  | .hbm, ⟨17, _⟩ => ⟨S16x256x64x256, .f32⟩
  | .hbm, ⟨18, _⟩ => ⟨S16x256x256, .f32⟩
  | .hbm, ⟨19, _⟩ => ⟨S1x1x256, .f32⟩
  | .hbm, ⟨20, _⟩ => ⟨S16x256x256, .f32⟩
  | .hbm, ⟨21, _⟩ => ⟨S16x256x256, .f32⟩
  | .hbm, ⟨22, _⟩ => ⟨S256x64x256, .f32⟩
  | .hbm, ⟨23, _⟩ => ⟨S1x1x256, .f32⟩
  | .hbm, ⟨24, _⟩ => ⟨S256x64x256, .f32⟩
  | .hbm, ⟨25, _⟩ => ⟨S256x64x256, .f32⟩
  | .hbm, ⟨26, _⟩ => ⟨S16x256x1x256, .f32⟩
  | .hbm, ⟨27, _⟩ => ⟨S16x256x65x256, .f32⟩
  | .hbm, ⟨28, _⟩ => ⟨S256x16x65x256, .f32⟩
  | .hbm, ⟨29, _⟩ => ⟨S256x1040x256, .f32⟩
  | .hbm, ⟨30, _⟩ => ⟨S256x1x256, .f32⟩
  | .hbm, ⟨31, _⟩ => ⟨S256x1105x256, .f32⟩
  | _, _ => ⟨S256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S256x256_0_1 : S1x256.BroadcastsInDim S256x256 (![0, 1] : Fin 2 → Fin S256x256.rank)
  bcast_S256_S1x1x1x256_3 : S256.BroadcastsInDim S1x1x1x256 (![3] : Fin 1 → Fin S1x1x1x256.rank)
  bcast_S1x1x1x256_S16x256x64x256_0_1_2_3 : S1x1x1x256.BroadcastsInDim S16x256x64x256 (![0, 1, 2, 3] : Fin 4 → Fin S16x256x64x256.rank)
  bcast_S256_S1x1x256_2 : S256.BroadcastsInDim S1x1x256 (![2] : Fin 1 → Fin S1x1x256.rank)
  bcast_S1x1x256_S16x256x256_0_1_2 : S1x1x256.BroadcastsInDim S16x256x256 (![0, 1, 2] : Fin 3 → Fin S16x256x256.rank)
  bcast_S1x1x256_S256x64x256_0_1_2 : S1x1x256.BroadcastsInDim S256x64x256 (![0, 1, 2] : Fin 3 → Fin S256x64x256.rank)
  bcast_S16x256x256_S16x256x1x256_0_1_3 : S16x256x256.BroadcastsInDim S16x256x1x256 (![0, 1, 3] : Fin 3 → Fin S16x256x1x256.rank)
  concatenates_S16x256x64x256_S16x256x1x256_S16x256x65x256_d2 : Shape.Concatenates [S16x256x64x256, S16x256x1x256] S16x256x65x256 2
  transposes_S16x256x65x256_S256x16x65x256_1_0_2_3 : S16x256x65x256.Transposes [1, 0, 2, 3] S256x16x65x256
  shapeCasts_S256x16x65x256_S256x1040x256 : S256x16x65x256.ShapeCasts S256x1040x256
  bcast_S256x256_S256x1x256_0_2 : S256x256.BroadcastsInDim S256x1x256 (![0, 2] : Fin 2 → Fin S256x1x256.rank)
  concatenates_S256x1x256_S256x1040x256_S256x64x256_S256x1105x256_d1 : Shape.Concatenates [S256x1x256, S256x1040x256, S256x64x256] S256x1105x256 1
  dot_S256x768_S768x256_S256x256_1_0_0_1_n_n_wf : DotDims.WF S256x768 S768x256 S256x256 [1] [0] [0] [1] [] []
  dot_S16x256x64x256_S256x256_S16x256x64x256_3_0_012_1_n_n_wf : DotDims.WF S16x256x64x256 S256x256 S16x256x64x256 [3] [0] [0, 1, 2] [1] [] []
  dot_S16x256x7_S7x256_S16x256x256_2_0_01_1_n_n_wf : DotDims.WF S16x256x7 S7x256 S16x256x256 [2] [0] [0, 1] [1] [] []
  dot_S256x64x256_S256x256_S256x64x256_2_0_01_1_n_n_wf : DotDims.WF S256x64x256 S256x256 S256x64x256 [2] [0] [0, 1] [1] [] []

variable [Facts₀]

def dot_S256x768_S768x256_S256x256_1_0_0_1_n_n : DotDims S256x768 S768x256 S256x256 where
  lhsContracting := [1]
  rhsContracting := [0]
  lhsNonContracting := [0]
  rhsNonContracting := [1]
  lhsBatch := []
  rhsBatch := []
  wf := dot_S256x768_S768x256_S256x256_1_0_0_1_n_n_wf
def dot_S16x256x64x256_S256x256_S16x256x64x256_3_0_012_1_n_n : DotDims S16x256x64x256 S256x256 S16x256x64x256 where
  lhsContracting := [3]
  rhsContracting := [0]
  lhsNonContracting := [0, 1, 2]
  rhsNonContracting := [1]
  lhsBatch := []
  rhsBatch := []
  wf := dot_S16x256x64x256_S256x256_S16x256x64x256_3_0_012_1_n_n_wf
def dot_S16x256x7_S7x256_S16x256x256_2_0_01_1_n_n : DotDims S16x256x7 S7x256 S16x256x256 where
  lhsContracting := [2]
  rhsContracting := [0]
  lhsNonContracting := [0, 1]
  rhsNonContracting := [1]
  lhsBatch := []
  rhsBatch := []
  wf := dot_S16x256x7_S7x256_S16x256x256_2_0_01_1_n_n_wf
def dot_S256x64x256_S256x256_S256x64x256_2_0_01_1_n_n : DotDims S256x64x256 S256x256 S256x64x256 where
  lhsContracting := [2]
  rhsContracting := [0]
  lhsNonContracting := [0, 1]
  rhsNonContracting := [1]
  lhsBatch := []
  rhsBatch := []
  wf := dot_S256x64x256_S256x256_S256x64x256_2_0_01_1_n_n_wf

class Facts : Prop extends Facts₀ where

variable [Facts]
-- ==== Proof.K.Region0.lean ====
/-
  One linear projection as a pallas_call: a block of rows x, the whole weight w and the bias row b are staged, and the
  body stores x·w + b (the rows contracted against the weight's first axis, the bias row added to every row) over
  the whole output block. Stated at a parameter `V`, the buffer contents the region is entered with: what each
  window's staging buffer holds at a point (its block of the array, fetched there or not), what the body leaves in the
  output's buffer (the one store's payload laid over the block), the body's triple, and the pipeline's proof data with
  its obligation.
-/
import proofs.«168344_j76063870812687_1_alg».proof.Proof.Gen.Kernel.Launch
import proofs.«168344_j76063870812687_1_alg».proof.Proof.Gen.Kernel.Skeleton
import proofs.«168344_j76063870812687_1_alg».proof.Proof.Gen.Kernel.Points
import Idealize.ShloMosaic.Lib.Pipeline.FrameBody
import Idealize.ShloMosaic.Lib.Tactic

set_option maxRecDepth 16384

noncomputable section

namespace Cert.Kernel.Lin

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows' staging buffer holds the point's block of rows, for any proof data over `V`'s arrays whose body
    leaves that block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The weight's staging buffer holds the whole weight at every point: where it is not fetched again its block
    index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The bias row's staging buffer likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rX0 : Rect S256x768 := Rect.unit (s := S256x768) ![0, 0] S256x768.size inb_S256x768_S256x768_0_0
abbrev rW0 : Rect S768x256 := Rect.unit (s := S768x256) ![0, 0] S768x256.size inb_S768x256_S768x256_0_0
abbrev rB0 : Rect S1x256 := Rect.unit (s := S1x256) ![0, 0] S1x256.size inb_S1x256_S1x256_0_0
abbrev rO0 : Rect S256x256 := Rect.unit (s := S256x256) ![0, 0] S256x256.size inb_S256x256_S256x256_0_0

/-! ## What the body leaves in the output's buffer -/

/-- The output's staging buffer after the body: the one store, of x·w + b, over the whole block. -/
def out0_3 (x0 : Vec F S256x768 .f32) (x1 : Vec F S768x256 .f32) (x2 : Vec F S1x256 .f32) : Vec F S256x256 .f32 :=
  View.canon [⟨rO0, k0_pay1 (View.ld x0 rX0) (View.ld x1 rW0) (View.ld x2 rB0)⟩]

/-- The one store covers the block. -/
theorem cover0_3 (p0 : Vec F S256x256 .f32) (y : S256x256.Idx) :
    ∃ pc ∈ ([⟨rO0, p0⟩] : List (View.Piece (Elt F) S256x256 .f32)), y ∈ pc.1.set :=
  View.cover_of_tiled [⟨rO0, p0⟩] S256x256.size (by rfl) y

/-! ## The body's triple -/

set_option maxHeartbeats 1000000 in
/-- The body on whole staging memrefs, the three inputs' at read contents and the output's at anything, runs to the
    continuation holding the inputs' as they were and the output's at `out0_3` of them. -/
theorem sound_kernel0 (c : Dev nD) (E : Set ℕ) (i : grid0.Coords) (arg1 : Memref sig .tc .vmem S256x768 .f32) (harg1 : arg1.IsWhole) (arg2 : Memref sig .tc .vmem S768x256 .f32) (harg2 : arg2.IsWhole) (arg3 : Memref sig .tc .vmem S1x256 .f32) (harg3 : arg3.IsWhole) (arg4 : Memref sig .tc .vmem S256x256 .f32) (harg4 : arg4.IsWhole)
    (x0 : Vec F S256x768 .f32) (x1 : Vec F S768x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data on core `c`: the arrays as the region finds them; after the body at point `t` each input's
    buffer at its block and the output's at `out0_3` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Lin

end
-- ==== Proof.K.Region1.lean ====
/-
  One linear projection as a pallas_call: a block of rows x, the whole weight w and the bias row b are staged, and the
  body stores x·w + b (the rows contracted against the weight's first axis, the bias row added to every row) over
  the whole output block. Stated at a parameter `V`, the buffer contents the region is entered with: what each
  window's staging buffer holds at a point (its block of the array, fetched there or not), what the body leaves in the
  output's buffer (the one store's payload laid over the block), the body's triple, and the pipeline's proof data with
  its obligation.
-/
import proofs.«168344_j76063870812687_1_alg».proof.Proof.Gen.Kernel.Launch
import proofs.«168344_j76063870812687_1_alg».proof.Proof.Gen.Kernel.Skeleton
import proofs.«168344_j76063870812687_1_alg».proof.Proof.Gen.Kernel.Points
import Idealize.ShloMosaic.Lib.Pipeline.FrameBody
import Idealize.ShloMosaic.Lib.Tactic

set_option maxRecDepth 16384

noncomputable section

namespace Cert.Kernel.Lin

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rows' staging buffer holds the point's block of rows, for any proof data over `V`'s arrays whose body
    leaves that block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The weight's staging buffer holds the whole weight at every point: where it is not fetched again its block
    index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The bias row's staging buffer likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev rX1 : Rect S4096x256 := Rect.unit (s := S4096x256) ![0, 0] S4096x256.size inb_S4096x256_S4096x256_0_0
abbrev rW1 : Rect S256x256 := Rect.unit (s := S256x256) ![0, 0] S256x256.size inb_S256x256_S256x256_0_0
abbrev rB1 : Rect S1x256 := Rect.unit (s := S1x256) ![0, 0] S1x256.size inb_S1x256_S1x256_0_0
abbrev rO1 : Rect S4096x256 := Rect.unit (s := S4096x256) ![0, 0] S4096x256.size inb_S4096x256_S4096x256_0_0

/-! ## What the body leaves in the output's buffer -/

/-- The output's staging buffer after the body: the one store, of x·w + b, over the whole block. -/
def out1_3 (x0 : Vec F S4096x256 .f32) (x1 : Vec F S256x256 .f32) (x2 : Vec F S1x256 .f32) : Vec F S4096x256 .f32 :=
  View.canon [⟨rO1, k1_pay1 (View.ld x0 rX1) (View.ld x1 rW1) (View.ld x2 rB1)⟩]

/-- The one store covers the block. -/
theorem cover1_3 (p0 : Vec F S4096x256 .f32) (y : S4096x256.Idx) :
    ∃ pc ∈ ([⟨rO1, p0⟩] : List (View.Piece (Elt F) S4096x256 .f32)), y ∈ pc.1.set :=
  View.cover_of_tiled [⟨rO1, p0⟩] S4096x256.size (by rfl) y

/-! ## The body's triple -/

set_option maxHeartbeats 1000000 in
/-- The body on whole staging memrefs, the three inputs' at read contents and the output's at anything, runs to the
    continuation holding the inputs' as they were and the output's at `out1_3` of them. -/
theorem sound_kernel1 (c : Dev nD) (E : Set ℕ) (i : grid1.Coords) (arg1 : Memref sig .tc .vmem S4096x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S4096x256 .f32) (harg4 : arg4.IsWhole)
    (x0 : Vec F S4096x256 .f32) (x1 : Vec F S256x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data on core `c`: the arrays as the region finds them; after the body at point `t` each input's
    buffer at its block and the output's at `out1_3` of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Lin

end
-- ==== Proof.K.Region2.lean ====
/-
  One linear projection as a pallas_call: a block of rows x, the whole weight w and the bias row b are staged, and the
  body stores x·w + b (the rows contracted against the weight's first axis, the bias row added to every row) over
  the whole output block. Stated at a parameter `V`, the buffer contents the region is entered with: what each
  window's staging buffer holds at a point (its block of the array, fetched there or not), what the body leaves in the
  output's buffer (the one store's payload laid over the block), the body's triple, and the pipeline's proof data with
  its obligation.
-/
import proofs.«168344_j76063870812687_1_alg».proof.Proof.Gen.Kernel.Launch
import proofs.«168344_j76063870812687_1_alg».proof.Proof.Gen.Kernel.Skeleton
import proofs.«168344_j76063870812687_1_alg».proof.Proof.Gen.Kernel.Points
import Idealize.ShloMosaic.Lib.Pipeline.FrameBody
import Idealize.ShloMosaic.Lib.Tactic

set_option maxRecDepth 16384

noncomputable section

namespace Cert.Kernel.Lin

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The rows' staging buffer holds the point's block of rows, for any proof data over `V`'s arrays whose body
    leaves that block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The weight's staging buffer holds the whole weight at every point: where it is not fetched again its block
    index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The bias row's staging buffer likewise. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev rX2 : Rect S4096x7 := Rect.unit (s := S4096x7) ![0, 0] S4096x7.size inb_S4096x7_S4096x7_0_0
abbrev rW2 : Rect S7x256 := Rect.unit (s := S7x256) ![0, 0] S7x256.size inb_S7x256_S7x256_0_0
abbrev rB2 : Rect S1x256 := Rect.unit (s := S1x256) ![0, 0] S1x256.size inb_S1x256_S1x256_0_0
abbrev rO2 : Rect S4096x256 := Rect.unit (s := S4096x256) ![0, 0] S4096x256.size inb_S4096x256_S4096x256_0_0

/-! ## What the body leaves in the output's buffer -/

/-- The output's staging buffer after the body: the one store, of x·w + b, over the whole block. -/
def out2_3 (x0 : Vec F S4096x7 .f32) (x1 : Vec F S7x256 .f32) (x2 : Vec F S1x256 .f32) : Vec F S4096x256 .f32 :=
  View.canon [⟨rO2, k2_pay1 (View.ld x0 rX2) (View.ld x1 rW2) (View.ld x2 rB2)⟩]

/-- The one store covers the block. -/
theorem cover2_3 (p0 : Vec F S4096x256 .f32) (y : S4096x256.Idx) :
    ∃ pc ∈ ([⟨rO2, p0⟩] : List (View.Piece (Elt F) S4096x256 .f32)), y ∈ pc.1.set :=
  View.cover_of_tiled [⟨rO2, p0⟩] S4096x256.size (by rfl) y

/-! ## The body's triple -/

set_option maxHeartbeats 1000000 in
/-- The body on whole staging memrefs, the three inputs' at read contents and the output's at anything, runs to the
    continuation holding the inputs' as they were and the output's at `out2_3` of them. -/
theorem sound_kernel2 (c : Dev nD) (E : Set ℕ) (i : grid2.Coords) (arg1 : Memref sig .tc .vmem S4096x7 .f32) (harg1 : arg1.IsWhole) (arg2 : Memref sig .tc .vmem S7x256 .f32) (harg2 : arg2.IsWhole) (arg3 : Memref sig .tc .vmem S1x256 .f32) (harg3 : arg3.IsWhole) (arg4 : Memref sig .tc .vmem S4096x256 .f32) (harg4 : arg4.IsWhole)
    (x0 : Vec F S4096x7 .f32) (x1 : Vec F S7x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data on core `c`: the arrays as the region finds them; after the body at point `t` each input's
    buffer at its block and the output's at `out2_3` of the input blocks; the invariant the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Lin

end
-- ==== Proof.K.Run.lean ====
/-
  The whole run of @main: four stretches of host operations with the three projections' pallas_calls between them.
  The buffer contents at each of the eight boundaries are a fold from the launch memory: a host stretch applies its
  operations; a pallas_call leaves its arrays at what the pipeline's write-backs leave and every other buffer as it
  was. Each pallas_call is a segment over the thread state "every unscoped buffer at the boundary's contents, the
  generator register at some state, nothing owed", and the launch over the seven segments gives: every weakly fair
  execution terminates, and the final memory holds every unscoped buffer at the last boundary's contents.
-/
import proofs.«168344_j76063870812687_1_alg».proof.Proof.K.Region0
import proofs.«168344_j76063870812687_1_alg».proof.Proof.K.Region1
import proofs.«168344_j76063870812687_1_alg».proof.Proof.K.Region2
import Idealize.ShloMosaic.Lib.Pipeline.RegionsLoop
import Idealize.ShloMosaic.Lib.Pipeline.FrameSuffix
import Idealize.ShloMosaic.Lib.Ring

set_option maxRecDepth 16384

noncomputable section

namespace Cert.Kernel.Lin

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first stretch (the instruction bias as a row). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At pallas_call 0's exit: its arrays at what the pipeline leaves (the inputs as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch (the object rows flattened and stacked, the object bias as a row). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At pallas_call 1's exit: its arrays at what the pipeline leaves (the inputs as entered, the output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third stretch (the projected object rows cut and re-laid, the action rows flattened, the action bias
    as a row). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At pallas_call 2's exit: its arrays at what the pipeline leaves (the inputs as entered, the output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the last stretch (the sequence assembled). -/
abbrev W7 : Dev nD → Valuation τ sig (Elt F) := fun c => StableHlo.after hostOps3 (W6 m ρ c)

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W7 m ρ c) ∗ ∃ r, prngReg c r)

/-! ## The pallas_calls as segments -/

set_option backward.isDefEq.respectTransparency.types false in
/-- Pallas_call 0 over the thread state: entered from every unscoped buffer at `W1`, left at `W2`. Its arrays
    are split out of the unscoped buffers and put back at the exit contents; the generator register goes into the
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 1 over the thread state: entered from every unscoped buffer at `W3`, left at `W4`. Its arrays
    are split out of the unscoped buffers and put back at the exit contents; the generator register goes into the
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 2 over the thread state: entered from every unscoped buffer at `W5`, left at `W6`. Its arrays
    are split out of the unscoped buffers and put back at the exit contents; the generator register goes into the
    invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- @main is the run of the segments. -/
theorem main_run (c : Dev nD) : main (F := F) c = Pipeline.Seg.run (segs m ρ) := (main_chain c).trans (by chain_rfl)

set_option backward.isDefEq.respectTransparency.types false in
/-- From any memory with zero counters, every weakly fair execution of @main on the TensorCore terminates, nothing
    faulting, and the final memory holds every unscoped buffer at the last boundary's contents `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c =>
      show iprop(StableHlo.held (c : Thread nD τ) (Pipeline.ucRefs τ sig) (W7 m ρ c) ∗ R c)
        ⊢ iprop(Tₙ m ρ c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

end Cert.Kernel.Lin

end
-- ==== Proof.K.Kept.lean ====
/-
  What each item of @main leaves unchanged: a host stretch every buffer none of its operations writes; a pallas_call
  every buffer that is none of its arrays, and each of its input arrays. So every argument array reaches the end of
  the run holding its launch contents.
-/
import proofs.«168344_j76063870812687_1_alg».proof.Proof.K.Run
import proofs.«168344_j76063870812687_1_alg».proof.Proof.Gen.Kernel.Regions

set_option maxRecDepth 16384

noncomputable section

namespace Cert.Kernel.Lin

open Cert.Kernel Cert.Kernel.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg)

/-! ## The host stretches -/

theorem host0_keep (c : Dev nD) (r : Ref sig .tc) (h : r ∉ hostOps0_W) : W1 m ρ c (Proc.devRef .tc r) = W0 m ρ c (Proc.devRef .tc r) :=
  StableHlo.after_of_writes_sub hostOps0 _ hostOps0_writes h
theorem host1_keep (c : Dev nD) (r : Ref sig .tc) (h : r ∉ hostOps1_W) : W3 m ρ c (Proc.devRef .tc r) = W2 m ρ c (Proc.devRef .tc r) :=
  StableHlo.after_of_writes_sub hostOps1 _ hostOps1_writes h
theorem host2_keep (c : Dev nD) (r : Ref sig .tc) (h : r ∉ hostOps2_W) : W5 m ρ c (Proc.devRef .tc r) = W4 m ρ c (Proc.devRef .tc r) :=
  StableHlo.after_of_writes_sub hostOps2 _ hostOps2_writes h
theorem host3_keep (c : Dev nD) (r : Ref sig .tc) (h : r ∉ hostOps3_W) : W7 m ρ c (Proc.devRef .tc r) = W6 m ρ c (Proc.devRef .tc r) :=
  StableHlo.after_of_writes_sub hostOps3 _ hostOps3_writes h

/-! ## The pallas_calls -/

theorem reg0_keep (c : Dev nD) (r : Ref sig .tc) (h : ∀ w, Pipeline.arrRef spec0 w ≠ r) : W2 m ρ c (Proc.devRef .tc r) = W1 m ρ c (Proc.devRef .tc r) :=
  W2_of_ne m ρ c r h
theorem reg1_keep (c : Dev nD) (r : Ref sig .tc) (h : ∀ w, Pipeline.arrRef spec1 w ≠ r) : W4 m ρ c (Proc.devRef .tc r) = W3 m ρ c (Proc.devRef .tc r) :=
  W4_of_ne m ρ c r h
theorem reg2_keep (c : Dev nD) (r : Ref sig .tc) (h : ∀ w, Pipeline.arrRef spec2 w ≠ r) : W6 m ρ c (Proc.devRef .tc r) = W5 m ρ c (Proc.devRef .tc r) :=
  W6_of_ne m ρ c r h
/-- An input window's array is as the region found it. -/
theorem reg0_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
theorem reg1_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))
theorem reg2_in (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hw _).trans (A_eq2 (V5 m ρ) c w))

/-! ## The arguments end as launched -/

/-- `main_arg0` reaches the end as launched: no host operation writes it, and a pallas_call at most reads it. -/
theorem W7_main_arg0 (c : Dev nD) : W7 m ρ c (Proc.devRef .tc main_arg0) = m ((c : Thread nD τ).loc main_arg0) :=
  (host3_keep m ρ c main_arg0 (by decide)).trans <| (reg2_keep m ρ c main_arg0 (by decide)).trans <| (host2_keep m ρ c main_arg0 (by decide)).trans <|
    (reg1_keep m ρ c main_arg0 (by decide)).trans <| (host1_keep m ρ c main_arg0 (by decide)).trans <| (reg0_in m ρ c 0 rfl).trans <| (host0_keep m ρ c main_arg0 (by decide)).trans rfl
/-- `main_arg1` reaches the end as launched: no host operation writes it, and a pallas_call at most reads it. -/
theorem W7_main_arg1 (c : Dev nD) : W7 m ρ c (Proc.devRef .tc main_arg1) = m ((c : Thread nD τ).loc main_arg1) :=
  (host3_keep m ρ c main_arg1 (by decide)).trans <| (reg2_keep m ρ c main_arg1 (by decide)).trans <| (host2_keep m ρ c main_arg1 (by decide)).trans <|
    (reg1_keep m ρ c main_arg1 (by decide)).trans <| (host1_keep m ρ c main_arg1 (by decide)).trans <| (reg0_keep m ρ c main_arg1 (by decide)).trans <| (host0_keep m ρ c main_arg1 (by decide)).trans rfl
/-- `main_arg2` reaches the end as launched: no host operation writes it, and a pallas_call at most reads it. -/
theorem W7_main_arg2 (c : Dev nD) : W7 m ρ c (Proc.devRef .tc main_arg2) = m ((c : Thread nD τ).loc main_arg2) :=
  (host3_keep m ρ c main_arg2 (by decide)).trans <| (reg2_keep m ρ c main_arg2 (by decide)).trans <| (host2_keep m ρ c main_arg2 (by decide)).trans <|
    (reg1_keep m ρ c main_arg2 (by decide)).trans <| (host1_keep m ρ c main_arg2 (by decide)).trans <| (reg0_keep m ρ c main_arg2 (by decide)).trans <| (host0_keep m ρ c main_arg2 (by decide)).trans rfl
/-- `main_arg3` reaches the end as launched: no host operation writes it, and a pallas_call at most reads it. -/
theorem W7_main_arg3 (c : Dev nD) : W7 m ρ c (Proc.devRef .tc main_arg3) = m ((c : Thread nD τ).loc main_arg3) :=
  (host3_keep m ρ c main_arg3 (by decide)).trans <| (reg2_keep m ρ c main_arg3 (by decide)).trans <| (host2_keep m ρ c main_arg3 (by decide)).trans <|
    (reg1_keep m ρ c main_arg3 (by decide)).trans <| (host1_keep m ρ c main_arg3 (by decide)).trans <| (reg0_keep m ρ c main_arg3 (by decide)).trans <| (host0_keep m ρ c main_arg3 (by decide)).trans rfl
/-- `main_arg4` reaches the end as launched: no host operation writes it, and a pallas_call at most reads it. -/
theorem W7_main_arg4 (c : Dev nD) : W7 m ρ c (Proc.devRef .tc main_arg4) = m ((c : Thread nD τ).loc main_arg4) :=
  (host3_keep m ρ c main_arg4 (by decide)).trans <| (reg2_keep m ρ c main_arg4 (by decide)).trans <| (host2_keep m ρ c main_arg4 (by decide)).trans <|
    (reg1_keep m ρ c main_arg4 (by decide)).trans <| (host1_keep m ρ c main_arg4 (by decide)).trans <| (reg0_in m ρ c 1 rfl).trans <| (host0_keep m ρ c main_arg4 (by decide)).trans rfl
/-- `main_arg5` reaches the end as launched: no host operation writes it, and a pallas_call at most reads it. -/
theorem W7_main_arg5 (c : Dev nD) : W7 m ρ c (Proc.devRef .tc main_arg5) = m ((c : Thread nD τ).loc main_arg5) :=
  (host3_keep m ρ c main_arg5 (by decide)).trans <| (reg2_keep m ρ c main_arg5 (by decide)).trans <| (host2_keep m ρ c main_arg5 (by decide)).trans <|
    (reg1_keep m ρ c main_arg5 (by decide)).trans <| (host1_keep m ρ c main_arg5 (by decide)).trans <| (reg0_keep m ρ c main_arg5 (by decide)).trans <| (host0_keep m ρ c main_arg5 (by decide)).trans rfl
/-- `main_arg6` reaches the end as launched: no host operation writes it, and a pallas_call at most reads it. -/
theorem W7_main_arg6 (c : Dev nD) : W7 m ρ c (Proc.devRef .tc main_arg6) = m ((c : Thread nD τ).loc main_arg6) :=
  (host3_keep m ρ c main_arg6 (by decide)).trans <| (reg2_in m ρ c 1 rfl).trans <| (host2_keep m ρ c main_arg6 (by decide)).trans <|
    (reg1_keep m ρ c main_arg6 (by decide)).trans <| (host1_keep m ρ c main_arg6 (by decide)).trans <| (reg0_keep m ρ c main_arg6 (by decide)).trans <| (host0_keep m ρ c main_arg6 (by decide)).trans rfl
/-- `main_arg7` reaches the end as launched: no host operation writes it, and a pallas_call at most reads it. -/
theorem W7_main_arg7 (c : Dev nD) : W7 m ρ c (Proc.devRef .tc main_arg7) = m ((c : Thread nD τ).loc main_arg7) :=
  (host3_keep m ρ c main_arg7 (by decide)).trans <| (reg2_keep m ρ c main_arg7 (by decide)).trans <| (host2_keep m ρ c main_arg7 (by decide)).trans <|
    (reg1_keep m ρ c main_arg7 (by decide)).trans <| (host1_keep m ρ c main_arg7 (by decide)).trans <| (reg0_keep m ρ c main_arg7 (by decide)).trans <| (host0_keep m ρ c main_arg7 (by decide)).trans rfl
/-- `main_arg8` reaches the end as launched: no host operation writes it, and a pallas_call at most reads it. -/
theorem W7_main_arg8 (c : Dev nD) : W7 m ρ c (Proc.devRef .tc main_arg8) = m ((c : Thread nD τ).loc main_arg8) :=
  (host3_keep m ρ c main_arg8 (by decide)).trans <| (reg2_keep m ρ c main_arg8 (by decide)).trans <| (host2_keep m ρ c main_arg8 (by decide)).trans <|
    (reg1_in m ρ c 1 rfl).trans <| (host1_keep m ρ c main_arg8 (by decide)).trans <| (reg0_keep m ρ c main_arg8 (by decide)).trans <| (host0_keep m ρ c main_arg8 (by decide)).trans rfl
/-- `main_arg9` reaches the end as launched: no host operation writes it, and a pallas_call at most reads it. -/
theorem W7_main_arg9 (c : Dev nD) : W7 m ρ c (Proc.devRef .tc main_arg9) = m ((c : Thread nD τ).loc main_arg9) :=
  (host3_keep m ρ c main_arg9 (by decide)).trans <| (reg2_keep m ρ c main_arg9 (by decide)).trans <| (host2_keep m ρ c main_arg9 (by decide)).trans <|
    (reg1_keep m ρ c main_arg9 (by decide)).trans <| (host1_keep m ρ c main_arg9 (by decide)).trans <| (reg0_keep m ρ c main_arg9 (by decide)).trans <| (host0_keep m ρ c main_arg9 (by decide)).trans rfl

/-- The frame: every weakly fair execution of @main terminates, nothing faulting, the argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c)⟩)
    (run_all m ρ)

end Cert.Kernel.Lin

end
-- ==== Proof.KI.Region0.lean ====
/-
  One linear projection as a pallas_call: a block of rows x, the whole weight w and the bias row b are staged, and the
  body stores x·w + b (the rows contracted against the weight's first axis, the bias row added to every row) over
  the whole output block. Stated at a parameter `V`, the buffer contents the region is entered with: what each
  window's staging buffer holds at a point (its block of the array, fetched there or not), what the body leaves in the
  output's buffer (the one store's payload laid over the block), the body's triple, and the pipeline's proof data with
  its obligation.
-/
import proofs.«168344_j76063870812687_1_alg».proof.Proof.Gen.KernelIdeal.Launch
import proofs.«168344_j76063870812687_1_alg».proof.Proof.Gen.KernelIdeal.Skeleton
import proofs.«168344_j76063870812687_1_alg».proof.Proof.Gen.KernelIdeal.Points
import Idealize.ShloMosaic.Lib.Pipeline.FrameBody
import Idealize.ShloMosaic.Lib.Tactic

set_option maxRecDepth 16384

noncomputable section

namespace Cert.KernelIdeal.Lin

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows' staging buffer holds the point's block of rows, for any proof data over `V`'s arrays whose body
    leaves that block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The weight's staging buffer holds the whole weight at every point: where it is not fetched again its block
    index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The bias row's staging buffer likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rX0 : Rect S256x768 := Rect.unit (s := S256x768) ![0, 0] S256x768.size inb_S256x768_S256x768_0_0
abbrev rW0 : Rect S768x256 := Rect.unit (s := S768x256) ![0, 0] S768x256.size inb_S768x256_S768x256_0_0
abbrev rB0 : Rect S1x256 := Rect.unit (s := S1x256) ![0, 0] S1x256.size inb_S1x256_S1x256_0_0
abbrev rO0 : Rect S256x256 := Rect.unit (s := S256x256) ![0, 0] S256x256.size inb_S256x256_S256x256_0_0

/-! ## What the body leaves in the output's buffer -/

/-- The output's staging buffer after the body: the one store, of x·w + b, over the whole block. -/
def out0_3 (x0 : Vec F S256x768 .f32) (x1 : Vec F S768x256 .f32) (x2 : Vec F S1x256 .f32) : Vec F S256x256 .f32 :=
  View.canon [⟨rO0, k0_pay1 (View.ld x0 rX0) (View.ld x1 rW0) (View.ld x2 rB0)⟩]

/-- The one store covers the block. -/
theorem cover0_3 (p0 : Vec F S256x256 .f32) (y : S256x256.Idx) :
    ∃ pc ∈ ([⟨rO0, p0⟩] : List (View.Piece (Elt F) S256x256 .f32)), y ∈ pc.1.set :=
  View.cover_of_tiled [⟨rO0, p0⟩] S256x256.size (by rfl) y

/-! ## The body's triple -/

set_option maxHeartbeats 1000000 in
/-- The body on whole staging memrefs, the three inputs' at read contents and the output's at anything, runs to the
    continuation holding the inputs' as they were and the output's at `out0_3` of them. -/
theorem sound_kernel0 (c : Dev nD) (E : Set ℕ) (i : grid0.Coords) (arg1 : Memref sig .tc .vmem S256x768 .f32) (harg1 : arg1.IsWhole) (arg2 : Memref sig .tc .vmem S768x256 .f32) (harg2 : arg2.IsWhole) (arg3 : Memref sig .tc .vmem S1x256 .f32) (harg3 : arg3.IsWhole) (arg4 : Memref sig .tc .vmem S256x256 .f32) (harg4 : arg4.IsWhole)
    (x0 : Vec F S256x768 .f32) (x1 : Vec F S768x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data on core `c`: the arrays as the region finds them; after the body at point `t` each input's
    buffer at its block and the output's at `out0_3` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Lin

end
-- ==== Proof.KI.Region1.lean ====
/-
  One linear projection as a pallas_call: a block of rows x, the whole weight w and the bias row b are staged, and the
  body stores x·w + b (the rows contracted against the weight's first axis, the bias row added to every row) over
  the whole output block. Stated at a parameter `V`, the buffer contents the region is entered with: what each
  window's staging buffer holds at a point (its block of the array, fetched there or not), what the body leaves in the
  output's buffer (the one store's payload laid over the block), the body's triple, and the pipeline's proof data with
  its obligation.
-/
import proofs.«168344_j76063870812687_1_alg».proof.Proof.Gen.KernelIdeal.Launch
import proofs.«168344_j76063870812687_1_alg».proof.Proof.Gen.KernelIdeal.Skeleton
import proofs.«168344_j76063870812687_1_alg».proof.Proof.Gen.KernelIdeal.Points
import Idealize.ShloMosaic.Lib.Pipeline.FrameBody
import Idealize.ShloMosaic.Lib.Tactic

set_option maxRecDepth 16384

noncomputable section

namespace Cert.KernelIdeal.Lin

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rows' staging buffer holds the point's block of rows, for any proof data over `V`'s arrays whose body
    leaves that block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The weight's staging buffer holds the whole weight at every point: where it is not fetched again its block
    index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The bias row's staging buffer likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev rX1 : Rect S4096x256 := Rect.unit (s := S4096x256) ![0, 0] S4096x256.size inb_S4096x256_S4096x256_0_0
abbrev rW1 : Rect S256x256 := Rect.unit (s := S256x256) ![0, 0] S256x256.size inb_S256x256_S256x256_0_0
abbrev rB1 : Rect S1x256 := Rect.unit (s := S1x256) ![0, 0] S1x256.size inb_S1x256_S1x256_0_0
abbrev rO1 : Rect S4096x256 := Rect.unit (s := S4096x256) ![0, 0] S4096x256.size inb_S4096x256_S4096x256_0_0

/-! ## What the body leaves in the output's buffer -/

/-- The output's staging buffer after the body: the one store, of x·w + b, over the whole block. -/
def out1_3 (x0 : Vec F S4096x256 .f32) (x1 : Vec F S256x256 .f32) (x2 : Vec F S1x256 .f32) : Vec F S4096x256 .f32 :=
  View.canon [⟨rO1, k1_pay1 (View.ld x0 rX1) (View.ld x1 rW1) (View.ld x2 rB1)⟩]

/-- The one store covers the block. -/
theorem cover1_3 (p0 : Vec F S4096x256 .f32) (y : S4096x256.Idx) :
    ∃ pc ∈ ([⟨rO1, p0⟩] : List (View.Piece (Elt F) S4096x256 .f32)), y ∈ pc.1.set :=
  View.cover_of_tiled [⟨rO1, p0⟩] S4096x256.size (by rfl) y

/-! ## The body's triple -/

set_option maxHeartbeats 1000000 in
/-- The body on whole staging memrefs, the three inputs' at read contents and the output's at anything, runs to the
    continuation holding the inputs' as they were and the output's at `out1_3` of them. -/
theorem sound_kernel1 (c : Dev nD) (E : Set ℕ) (i : grid1.Coords) (arg1 : Memref sig .tc .vmem S4096x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S4096x256 .f32) (harg4 : arg4.IsWhole)
    (x0 : Vec F S4096x256 .f32) (x1 : Vec F S256x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data on core `c`: the arrays as the region finds them; after the body at point `t` each input's
    buffer at its block and the output's at `out1_3` of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Lin

end
-- ==== Proof.KI.Region2.lean ====
/-
  One linear projection as a pallas_call: a block of rows x, the whole weight w and the bias row b are staged, and the
  body stores x·w + b (the rows contracted against the weight's first axis, the bias row added to every row) over
  the whole output block. Stated at a parameter `V`, the buffer contents the region is entered with: what each
  window's staging buffer holds at a point (its block of the array, fetched there or not), what the body leaves in the
  output's buffer (the one store's payload laid over the block), the body's triple, and the pipeline's proof data with
  its obligation.
-/
import proofs.«168344_j76063870812687_1_alg».proof.Proof.Gen.KernelIdeal.Launch
import proofs.«168344_j76063870812687_1_alg».proof.Proof.Gen.KernelIdeal.Skeleton
import proofs.«168344_j76063870812687_1_alg».proof.Proof.Gen.KernelIdeal.Points
import Idealize.ShloMosaic.Lib.Pipeline.FrameBody
import Idealize.ShloMosaic.Lib.Tactic

set_option maxRecDepth 16384

noncomputable section

namespace Cert.KernelIdeal.Lin

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The rows' staging buffer holds the point's block of rows, for any proof data over `V`'s arrays whose body
    leaves that block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The weight's staging buffer holds the whole weight at every point: where it is not fetched again its block
    index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The bias row's staging buffer likewise. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev rX2 : Rect S4096x7 := Rect.unit (s := S4096x7) ![0, 0] S4096x7.size inb_S4096x7_S4096x7_0_0
abbrev rW2 : Rect S7x256 := Rect.unit (s := S7x256) ![0, 0] S7x256.size inb_S7x256_S7x256_0_0
abbrev rB2 : Rect S1x256 := Rect.unit (s := S1x256) ![0, 0] S1x256.size inb_S1x256_S1x256_0_0
abbrev rO2 : Rect S4096x256 := Rect.unit (s := S4096x256) ![0, 0] S4096x256.size inb_S4096x256_S4096x256_0_0

/-! ## What the body leaves in the output's buffer -/

/-- The output's staging buffer after the body: the one store, of x·w + b, over the whole block. -/
def out2_3 (x0 : Vec F S4096x7 .f32) (x1 : Vec F S7x256 .f32) (x2 : Vec F S1x256 .f32) : Vec F S4096x256 .f32 :=
  View.canon [⟨rO2, k2_pay1 (View.ld x0 rX2) (View.ld x1 rW2) (View.ld x2 rB2)⟩]

/-- The one store covers the block. -/
theorem cover2_3 (p0 : Vec F S4096x256 .f32) (y : S4096x256.Idx) :
    ∃ pc ∈ ([⟨rO2, p0⟩] : List (View.Piece (Elt F) S4096x256 .f32)), y ∈ pc.1.set :=
  View.cover_of_tiled [⟨rO2, p0⟩] S4096x256.size (by rfl) y

/-! ## The body's triple -/

set_option maxHeartbeats 1000000 in
/-- The body on whole staging memrefs, the three inputs' at read contents and the output's at anything, runs to the
    continuation holding the inputs' as they were and the output's at `out2_3` of them. -/
theorem sound_kernel2 (c : Dev nD) (E : Set ℕ) (i : grid2.Coords) (arg1 : Memref sig .tc .vmem S4096x7 .f32) (harg1 : arg1.IsWhole) (arg2 : Memref sig .tc .vmem S7x256 .f32) (harg2 : arg2.IsWhole) (arg3 : Memref sig .tc .vmem S1x256 .f32) (harg3 : arg3.IsWhole) (arg4 : Memref sig .tc .vmem S4096x256 .f32) (harg4 : arg4.IsWhole)
    (x0 : Vec F S4096x7 .f32) (x1 : Vec F S7x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data on core `c`: the arrays as the region finds them; after the body at point `t` each input's
    buffer at its block and the output's at `out2_3` of the input blocks; the invariant the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Lin

end
-- ==== Proof.KI.Run.lean ====
/-
  The whole run of @main: four stretches of host operations with the three projections' pallas_calls between them.
  The buffer contents at each of the eight boundaries are a fold from the launch memory: a host stretch applies its
  operations; a pallas_call leaves its arrays at what the pipeline's write-backs leave and every other buffer as it
  was. Each pallas_call is a segment over the thread state "every unscoped buffer at the boundary's contents, the
  generator register at some state, nothing owed", and the launch over the seven segments gives: every weakly fair
  execution terminates, and the final memory holds every unscoped buffer at the last boundary's contents.
-/
import proofs.«168344_j76063870812687_1_alg».proof.Proof.KI.Region0
import proofs.«168344_j76063870812687_1_alg».proof.Proof.KI.Region1
import proofs.«168344_j76063870812687_1_alg».proof.Proof.KI.Region2
import Idealize.ShloMosaic.Lib.Pipeline.RegionsLoop
import Idealize.ShloMosaic.Lib.Pipeline.FrameSuffix
import Idealize.ShloMosaic.Lib.Ring

set_option maxRecDepth 16384

noncomputable section

namespace Cert.KernelIdeal.Lin

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first stretch (the instruction bias as a row). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At pallas_call 0's exit: its arrays at what the pipeline leaves (the inputs as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch (the object rows flattened and stacked, the object bias as a row). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At pallas_call 1's exit: its arrays at what the pipeline leaves (the inputs as entered, the output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third stretch (the projected object rows cut and re-laid, the action rows flattened, the action bias
    as a row). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At pallas_call 2's exit: its arrays at what the pipeline leaves (the inputs as entered, the output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the last stretch (the sequence assembled). -/
abbrev W7 : Dev nD → Valuation τ sig (Elt F) := fun c => StableHlo.after hostOps3 (W6 m ρ c)

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W7 m ρ c) ∗ ∃ r, prngReg c r)

/-! ## The pallas_calls as segments -/

set_option backward.isDefEq.respectTransparency.types false in
/-- Pallas_call 0 over the thread state: entered from every unscoped buffer at `W1`, left at `W2`. Its arrays
    are split out of the unscoped buffers and put back at the exit contents; the generator register goes into the
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 1 over the thread state: entered from every unscoped buffer at `W3`, left at `W4`. Its arrays
    are split out of the unscoped buffers and put back at the exit contents; the generator register goes into the
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 2 over the thread state: entered from every unscoped buffer at `W5`, left at `W6`. Its arrays
    are split out of the unscoped buffers and put back at the exit contents; the generator register goes into the
    invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- @main is the run of the segments. -/
theorem main_run (c : Dev nD) : main (F := F) c = Pipeline.Seg.run (segs m ρ) := (main_chain c).trans (by chain_rfl)

set_option backward.isDefEq.respectTransparency.types false in
/-- From any memory with zero counters, every weakly fair execution of @main on the TensorCore terminates, nothing
    faulting, and the final memory holds every unscoped buffer at the last boundary's contents `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c =>
      show iprop(StableHlo.held (c : Thread nD τ) (Pipeline.ucRefs τ sig) (W7 m ρ c) ∗ R c)
        ⊢ iprop(Tₙ m ρ c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

end Cert.KernelIdeal.Lin

end
-- ==== Proof.KI.Kept.lean ====
/-
  What each item of @main leaves unchanged: a host stretch every buffer none of its operations writes; a pallas_call
  every buffer that is none of its arrays, and each of its input arrays. So every argument array reaches the end of
  the run holding its launch contents.
-/
import proofs.«168344_j76063870812687_1_alg».proof.Proof.KI.Run
import proofs.«168344_j76063870812687_1_alg».proof.Proof.Gen.KernelIdeal.Regions

set_option maxRecDepth 16384

noncomputable section

namespace Cert.KernelIdeal.Lin

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg)

/-! ## The host stretches -/

theorem host0_keep (c : Dev nD) (r : Ref sig .tc) (h : r ∉ hostOps0_W) : W1 m ρ c (Proc.devRef .tc r) = W0 m ρ c (Proc.devRef .tc r) :=
  StableHlo.after_of_writes_sub hostOps0 _ hostOps0_writes h
theorem host1_keep (c : Dev nD) (r : Ref sig .tc) (h : r ∉ hostOps1_W) : W3 m ρ c (Proc.devRef .tc r) = W2 m ρ c (Proc.devRef .tc r) :=
  StableHlo.after_of_writes_sub hostOps1 _ hostOps1_writes h
theorem host2_keep (c : Dev nD) (r : Ref sig .tc) (h : r ∉ hostOps2_W) : W5 m ρ c (Proc.devRef .tc r) = W4 m ρ c (Proc.devRef .tc r) :=
  StableHlo.after_of_writes_sub hostOps2 _ hostOps2_writes h
theorem host3_keep (c : Dev nD) (r : Ref sig .tc) (h : r ∉ hostOps3_W) : W7 m ρ c (Proc.devRef .tc r) = W6 m ρ c (Proc.devRef .tc r) :=
  StableHlo.after_of_writes_sub hostOps3 _ hostOps3_writes h

/-! ## The pallas_calls -/

theorem reg0_keep (c : Dev nD) (r : Ref sig .tc) (h : ∀ w, Pipeline.arrRef spec0 w ≠ r) : W2 m ρ c (Proc.devRef .tc r) = W1 m ρ c (Proc.devRef .tc r) :=
  W2_of_ne m ρ c r h
theorem reg1_keep (c : Dev nD) (r : Ref sig .tc) (h : ∀ w, Pipeline.arrRef spec1 w ≠ r) : W4 m ρ c (Proc.devRef .tc r) = W3 m ρ c (Proc.devRef .tc r) :=
  W4_of_ne m ρ c r h
theorem reg2_keep (c : Dev nD) (r : Ref sig .tc) (h : ∀ w, Pipeline.arrRef spec2 w ≠ r) : W6 m ρ c (Proc.devRef .tc r) = W5 m ρ c (Proc.devRef .tc r) :=
  W6_of_ne m ρ c r h
/-- An input window's array is as the region found it. -/
theorem reg0_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
theorem reg1_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))
theorem reg2_in (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hw _).trans (A_eq2 (V5 m ρ) c w))

/-! ## The arguments end as launched -/

/-- `main_arg0` reaches the end as launched: no host operation writes it, and a pallas_call at most reads it. -/
theorem W7_main_arg0 (c : Dev nD) : W7 m ρ c (Proc.devRef .tc main_arg0) = m ((c : Thread nD τ).loc main_arg0) :=
  (host3_keep m ρ c main_arg0 (by decide)).trans <| (reg2_keep m ρ c main_arg0 (by decide)).trans <| (host2_keep m ρ c main_arg0 (by decide)).trans <|
    (reg1_keep m ρ c main_arg0 (by decide)).trans <| (host1_keep m ρ c main_arg0 (by decide)).trans <| (reg0_in m ρ c 0 rfl).trans <| (host0_keep m ρ c main_arg0 (by decide)).trans rfl
/-- `main_arg1` reaches the end as launched: no host operation writes it, and a pallas_call at most reads it. -/
theorem W7_main_arg1 (c : Dev nD) : W7 m ρ c (Proc.devRef .tc main_arg1) = m ((c : Thread nD τ).loc main_arg1) :=
  (host3_keep m ρ c main_arg1 (by decide)).trans <| (reg2_keep m ρ c main_arg1 (by decide)).trans <| (host2_keep m ρ c main_arg1 (by decide)).trans <|
    (reg1_keep m ρ c main_arg1 (by decide)).trans <| (host1_keep m ρ c main_arg1 (by decide)).trans <| (reg0_keep m ρ c main_arg1 (by decide)).trans <| (host0_keep m ρ c main_arg1 (by decide)).trans rfl
/-- `main_arg2` reaches the end as launched: no host operation writes it, and a pallas_call at most reads it. -/
theorem W7_main_arg2 (c : Dev nD) : W7 m ρ c (Proc.devRef .tc main_arg2) = m ((c : Thread nD τ).loc main_arg2) :=
  (host3_keep m ρ c main_arg2 (by decide)).trans <| (reg2_keep m ρ c main_arg2 (by decide)).trans <| (host2_keep m ρ c main_arg2 (by decide)).trans <|
    (reg1_keep m ρ c main_arg2 (by decide)).trans <| (host1_keep m ρ c main_arg2 (by decide)).trans <| (reg0_keep m ρ c main_arg2 (by decide)).trans <| (host0_keep m ρ c main_arg2 (by decide)).trans rfl
/-- `main_arg3` reaches the end as launched: no host operation writes it, and a pallas_call at most reads it. -/
theorem W7_main_arg3 (c : Dev nD) : W7 m ρ c (Proc.devRef .tc main_arg3) = m ((c : Thread nD τ).loc main_arg3) :=
  (host3_keep m ρ c main_arg3 (by decide)).trans <| (reg2_keep m ρ c main_arg3 (by decide)).trans <| (host2_keep m ρ c main_arg3 (by decide)).trans <|
    (reg1_keep m ρ c main_arg3 (by decide)).trans <| (host1_keep m ρ c main_arg3 (by decide)).trans <| (reg0_keep m ρ c main_arg3 (by decide)).trans <| (host0_keep m ρ c main_arg3 (by decide)).trans rfl
/-- `main_arg4` reaches the end as launched: no host operation writes it, and a pallas_call at most reads it. -/
theorem W7_main_arg4 (c : Dev nD) : W7 m ρ c (Proc.devRef .tc main_arg4) = m ((c : Thread nD τ).loc main_arg4) :=
  (host3_keep m ρ c main_arg4 (by decide)).trans <| (reg2_keep m ρ c main_arg4 (by decide)).trans <| (host2_keep m ρ c main_arg4 (by decide)).trans <|
    (reg1_keep m ρ c main_arg4 (by decide)).trans <| (host1_keep m ρ c main_arg4 (by decide)).trans <| (reg0_in m ρ c 1 rfl).trans <| (host0_keep m ρ c main_arg4 (by decide)).trans rfl
/-- `main_arg5` reaches the end as launched: no host operation writes it, and a pallas_call at most reads it. -/
theorem W7_main_arg5 (c : Dev nD) : W7 m ρ c (Proc.devRef .tc main_arg5) = m ((c : Thread nD τ).loc main_arg5) :=
  (host3_keep m ρ c main_arg5 (by decide)).trans <| (reg2_keep m ρ c main_arg5 (by decide)).trans <| (host2_keep m ρ c main_arg5 (by decide)).trans <|
    (reg1_keep m ρ c main_arg5 (by decide)).trans <| (host1_keep m ρ c main_arg5 (by decide)).trans <| (reg0_keep m ρ c main_arg5 (by decide)).trans <| (host0_keep m ρ c main_arg5 (by decide)).trans rfl
/-- `main_arg6` reaches the end as launched: no host operation writes it, and a pallas_call at most reads it. -/
theorem W7_main_arg6 (c : Dev nD) : W7 m ρ c (Proc.devRef .tc main_arg6) = m ((c : Thread nD τ).loc main_arg6) :=
  (host3_keep m ρ c main_arg6 (by decide)).trans <| (reg2_in m ρ c 1 rfl).trans <| (host2_keep m ρ c main_arg6 (by decide)).trans <|
    (reg1_keep m ρ c main_arg6 (by decide)).trans <| (host1_keep m ρ c main_arg6 (by decide)).trans <| (reg0_keep m ρ c main_arg6 (by decide)).trans <| (host0_keep m ρ c main_arg6 (by decide)).trans rfl
/-- `main_arg7` reaches the end as launched: no host operation writes it, and a pallas_call at most reads it. -/
theorem W7_main_arg7 (c : Dev nD) : W7 m ρ c (Proc.devRef .tc main_arg7) = m ((c : Thread nD τ).loc main_arg7) :=
  (host3_keep m ρ c main_arg7 (by decide)).trans <| (reg2_keep m ρ c main_arg7 (by decide)).trans <| (host2_keep m ρ c main_arg7 (by decide)).trans <|
    (reg1_keep m ρ c main_arg7 (by decide)).trans <| (host1_keep m ρ c main_arg7 (by decide)).trans <| (reg0_keep m ρ c main_arg7 (by decide)).trans <| (host0_keep m ρ c main_arg7 (by decide)).trans rfl
/-- `main_arg8` reaches the end as launched: no host operation writes it, and a pallas_call at most reads it. -/
theorem W7_main_arg8 (c : Dev nD) : W7 m ρ c (Proc.devRef .tc main_arg8) = m ((c : Thread nD τ).loc main_arg8) :=
  (host3_keep m ρ c main_arg8 (by decide)).trans <| (reg2_keep m ρ c main_arg8 (by decide)).trans <| (host2_keep m ρ c main_arg8 (by decide)).trans <|
    (reg1_in m ρ c 1 rfl).trans <| (host1_keep m ρ c main_arg8 (by decide)).trans <| (reg0_keep m ρ c main_arg8 (by decide)).trans <| (host0_keep m ρ c main_arg8 (by decide)).trans rfl
/-- `main_arg9` reaches the end as launched: no host operation writes it, and a pallas_call at most reads it. -/
theorem W7_main_arg9 (c : Dev nD) : W7 m ρ c (Proc.devRef .tc main_arg9) = m ((c : Thread nD τ).loc main_arg9) :=
  (host3_keep m ρ c main_arg9 (by decide)).trans <| (reg2_keep m ρ c main_arg9 (by decide)).trans <| (host2_keep m ρ c main_arg9 (by decide)).trans <|
    (reg1_keep m ρ c main_arg9 (by decide)).trans <| (host1_keep m ρ c main_arg9 (by decide)).trans <| (reg0_keep m ρ c main_arg9 (by decide)).trans <| (host0_keep m ρ c main_arg9 (by decide)).trans rfl

/-- The frame: every weakly fair execution of @main terminates, nothing faulting, the argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c)⟩)
    (run_all m ρ)

end Cert.KernelIdeal.Lin

end
-- ==== Proof.Spec.lean ====
/-
  What one projection computes, over the extended reals: the rows x : [M, K] contracted against the weight
  w : [K, N], the bias row b : [1, N] added to every row,

      lin x w b (p, q) = (∑ₖ x(p, k) · w(k, q)) + b(0, q).
-/
import Idealize.ShloMosaic.PureOps.Ideal
import Idealize.ShloMosaic.Lib.ValueIdx

noncomputable section

namespace Cert.Spec

open Idealize.ShloMosaic Idealize.ShloMosaic.ValueIdx

/-- x·w + b, index by index. -/
def lin {M K N : Nat} (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => (∑ k : Fin K, x (ix2 (⟨(i 0).val, (i 0).isLt⟩ : Fin M) k) * w (ix2 k (⟨(i 1).val, (i 1).isLt⟩ : Fin N)))
    + b (ix2 (0 : Fin 1) (⟨(i 1).val, (i 1).isLt⟩ : Fin N))

/-- The projection at an index whose coordinates are `p` and `q`. -/
theorem lin_eq_of {M K N : Nat} (x : (⟨2, ![M, K]⟩ : Shape).Idx → EReal) (w : (⟨2, ![K, N]⟩ : Shape).Idx → EReal)
    (b : (⟨2, ![1, N]⟩ : Shape).Idx → EReal) (i : (⟨2, ![M, N]⟩ : Shape).Idx) (p : Fin M) (q : Fin N)
    (hp : (i 0).val = p.val) (hq : (i 1).val = q.val) :
    lin x w b i = (∑ k : Fin K, x (ix2 p k) * w (ix2 k q)) + b (ix2 (0 : Fin 1) q) := by
  have e0 : (⟨(i 0).val, (i 0).isLt⟩ : Fin M) = p := Fin.ext hp
  have e1 : (⟨(i 1).val, (i 1).isLt⟩ : Fin N) = q := Fin.ext hq
  unfold lin
  simp only [e0, e1]

/-- The projection of equal operands. -/
theorem lin_congr {M K N : Nat} {x x' : (⟨2, ![M, K]⟩ : Shape).Idx → EReal} {w w' : (⟨2, ![K, N]⟩ : Shape).Idx → EReal}
    {b b' : (⟨2, ![1, N]⟩ : Shape).Idx → EReal} (hx : x = x') (hw : w = w') (hb : b = b') : lin x w b = lin x' w' b' := by
  rw [hx, hw, hb]

end Cert.Spec

end
-- ==== Proof.LibRowwise.lean ====
/-
  Rank-2 vectors read row by row, at the extended reals, for any sizes.

    * a plain matrix product `[M, K] × [K, N]` into a zero accumulator, at `(p, q)`: `∑ₖ a(p, k) · b(k, q)`;
    * a sum over the lanes (axis 1) of an `[A, B]` vector, at row `p`: `∑ₖ v(p, k)`;
    * a maximum over the lanes, at row `p`: the fold of `max` from the starting word's value over `v(p, ·)`;
    * the cast of a length-`A` vector to a column `[A, 1]`, at `(p, u)`: the vector at `p`;
    * the broadcast of a column `[A, 1]` along the lanes to `[A, B]`, at `(p, q)`: the column at `(p, 0)`.

  A dimension-numbers record that contracts the left operand's axis 1 with the right operand's axis 0 and has no batch
  axes IS the plain record (`eq_plain`), so the product lemma serves every such record a program prints.
-/
import Idealize.ShloMosaic.PureOps.Ideal.Laws
import Idealize.ShloMosaic.Lib.ValueIdx
import Idealize.ShloMosaic.Lib.Pipeline.Value

noncomputable section

namespace Cert.Lib.Rowwise

open Idealize.ShloMosaic Idealize.ShloMosaic.ValueIdx

/-! ## The plain matrix product -/

section Dot

variable {M K N : Nat}

/-- A record over `[M, K]`, `[K, N]`, `[M, N]` whose six lists are the plain product's is the plain record. -/
theorem eq_plain (D : DotDims ⟨2, ![M, K]⟩ ⟨2, ![K, N]⟩ ⟨2, ![M, N]⟩) (h1 : D.lhsContracting = [1]) (h2 : D.rhsContracting = [0])
    (h3 : D.lhsNonContracting = [0]) (h4 : D.rhsNonContracting = [1]) (h5 : D.lhsBatch = []) (h6 : D.rhsBatch = []) :
    D = DotDims.plain M K N := by
  cases D
  simp only at h1 h2 h3 h4 h5 h6
  subst h1 h2 h3 h4 h5 h6
  rfl

theorem plain_lhs0 (j : (⟨2, ![M, N]⟩ : Shape).Idx) (q : (DotDims.plain M K N).contr.Idx) :
    ((DotDims.plain M K N).lhsIdx j q 0).val = (j 0).val := rfl
theorem plain_lhs1 (j : (⟨2, ![M, N]⟩ : Shape).Idx) (q : (DotDims.plain M K N).contr.Idx) :
    ((DotDims.plain M K N).lhsIdx j q 1).val = (q ⟨0, Nat.one_pos⟩).val := rfl
theorem plain_rhs0 (j : (⟨2, ![M, N]⟩ : Shape).Idx) (q : (DotDims.plain M K N).contr.Idx) :
    ((DotDims.plain M K N).rhsIdx j q 0).val = (q ⟨0, Nat.one_pos⟩).val := rfl
theorem plain_rhs1 (j : (⟨2, ![M, N]⟩ : Shape).Idx) (q : (DotDims.plain M K N).contr.Idx) :
    ((DotDims.plain M K N).rhsIdx j q 1).val = (j 1).val := rfl

/-- The plain product into the zero word, read at `(p, q)`: the sum over the contracted coordinate. -/
theorem plain_matmul_zero_apply {φ₁ φ₂ : FTy} (prec : Option ContractPrecision) (a : FVec Ideal ⟨2, ![M, K]⟩ φ₁)
    (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

end Dot

/-! ## Lane reductions -/

section Lanes

variable {A B : Nat} {φ : FTy}

/-- Row `p` with lane `k` put back is `(p, k)`. -/
theorem lift_row (h : (⟨2, ![A, B]⟩ : Shape).Reduces [1] ⟨1, ![A]⟩) (p : Fin A) (k : Fin B) :
    h.lift (ix1 p) k = ix2 p k :=
  funext fun a => Fin.ext (by match a with | ⟨0, _⟩ => rfl | ⟨1, _⟩ => rfl)

/-- A lane sum at row `p`. -/
theorem laneSum_apply (src : FVec Ideal ⟨2, ![A, B]⟩ φ) (acc : BitVec φ.bits) (h : (⟨2, ![A, B]⟩ : Shape).Reduces [1] ⟨1, ![A]⟩)
    (hφ : FKind.Formats φ) (hacc : acc = FKind.add.neutral φ hφ) (p : Fin A) :
    multiReduction .add [1] ⟨1, ![A]⟩ src acc h hφ hacc (ix1 p) = ∑ k : Fin B, src (ix2 p k) := by
  rw [Ideal.multiReduction_add_single]
  exact Finset.sum_congr rfl fun k _ => congrArg src (lift_row h p k)

/-- A lane maximum at row `p`: the fold of `max` from the starting word's value. -/
theorem laneMax_apply (src : FVec Ideal ⟨2, ![A, B]⟩ φ) (acc : BitVec φ.bits) (h : (⟨2, ![A, B]⟩ : Shape).Reduces [1] ⟨1, ![A]⟩)
    (hφ : FKind.Formats φ) (hacc : acc = FKind.maximumf.neutral φ hφ) (p : Fin A) :
    multiReduction .maximumf [1] ⟨1, ![A]⟩ src acc h hφ hacc (ix1 p)
      = (Finset.univ : Finset (Fin B)).fold max (Ideal.ofBits φ acc) (fun k => src (ix2 p k)) := by
  rw [Ideal.multiReduction_maximumf_single]
  have e : (src ∘ h.lift (ix1 p)) = fun k => src (ix2 p k) := funext fun k => congrArg src (lift_row h p k)
  rw [e]
  rfl

end Lanes

/-! ## Columns -/

section Columns

variable {A B : Nat} {α : Type}

/-- A length-`A` vector cast to a column reads, at `(p, u)`, the vector at `p`. -/
theorem column_apply (v : (⟨1, ![A]⟩ : Shape).Idx → α) (h : (⟨1, ![A]⟩ : Shape).ShapeCasts ⟨2, ![A, 1]⟩) (p : Fin A) (u : Fin 1) :
    shapeCast ⟨2, ![A, 1]⟩ v h (ix2 p u) = v (ix1 p) := by
  refine shapeCast_apply v h (ix2 p u) (ix1 p) ?_
  rw [Shape.rowMajor_val_one, Shape.rowMajor_val_two]
  have hu : u.val = 0 := by omega
  show p.val = p.val * 1 + u.val
  omega

/-- A column broadcast along the lanes reads, at `(p, q)`, the column at `(p, 0)`. -/
theorem columnBroadcast_apply (v : (⟨2, ![A, 1]⟩ : Shape).Idx → α) (h : (⟨2, ![A, 1]⟩ : Shape).Broadcasts ⟨2, ![A, B]⟩)
    (hA : A ≠ 1) (p : Fin A) (q : Fin B) : broadcastTo ⟨2, ![A, B]⟩ v h (ix2 p q) = v (ix2 p 0) := by
  refine broadcastTo_apply v h (ix2 p q) (ix2 p 0) fun a => ?_
  match a with
  | ⟨0, _⟩ => exact (if_neg hA).symm
  | ⟨1, _⟩ => exact (if_pos rfl).symm

end Columns

end Cert.Lib.Rowwise

end
-- ==== Proof.KI.Value0.lean ====
/-
  What a projection's pallas_call leaves in its output array. The body's payload at (p, q) of a block is
  (∑ₖ x(p, k) · w(k, q)) + b(0, q) of the staged blocks: the matrix product into the zero accumulator is that sum,
  the changes of float format are the identity over the extended reals, and the broadcast bias row reads its column.
  Block t of the rows and of the output sit at rows t·(rows per block) …, the weight and the bias row are whole, so what
  point t writes back is block t of `lin` of the three arrays; the blocks cover the output array, which therefore ends
  as `lin` of the arrays the region was entered with.
-/
import proofs.«168344_j76063870812687_1_alg».proof.Proof.KI.Region0
import proofs.«168344_j76063870812687_1_alg».proof.Proof.Spec
import proofs.«168344_j76063870812687_1_alg».proof.Proof.LibRowwise
import Idealize.ShloMosaic.Lib.Pipeline.Value
import Idealize.ShloMosaic.Lib.ValueIdx
import Idealize.ShloMosaic.PureOps.Ideal.Laws

set_option maxRecDepth 16384

noncomputable section

namespace Cert.KernelIdeal.Lin

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

-- the sizes and names of this projection
local notation "XArr" => S256x768
local notation "XBlk" => S256x768
local notation "WArr" => S768x256
local notation "OArr" => S256x256
local notation "OBlk" => S256x256
local notation "MT" => 256
local notation "MB" => 256
local notation "KK" => 768
local notation "GN" => 1
local notation "hGN" => N_0
local notation "xref" => main_arg0
local notation "wref" => main_arg4
local notation "bref" => main_v0
local notation "oref" => main_v1
local notation "theDot" => dot_S256x768_S768x256_S256x256_1_0_0_1_n_n
local notation "hBc" => broadcasts_S1x256_S256x256

variable (V : (c : Dev nD) → (b : Ref sig .tc) → Buf (Elt Ideal) ((c : Thread nD τ).loc b))

theorem hz0 : (![0, 0] : Fin 2 → Nat) = fun _ => 0 := funext fun a => by fin_cases a <;> rfl

/-! ## The payload at an index -/

/-- The body's matrix product into the zero accumulator, at (p, q): the sum over the contracted coordinate. -/
theorem prod0_apply (x' : FVec Ideal XBlk .bf16) (w' : FVec Ideal WArr .bf16) (p : Fin MB) (q : Fin 256) :
    matmul theDot none x' w' (constant OBlk .f32 0x00000000#32) (ix2 p q) = ∑ k : Fin KK, x' (ix2 p k) * w' (ix2 k q) := by
  have hD : theDot = DotDims.plain MB KK 256 := Cert.Lib.Rowwise.eq_plain _ rfl rfl rfl rfl rfl rfl
  rw [hD]
  exact Cert.Lib.Rowwise.plain_matmul_zero_apply none x' w' p q

/-- The bias row broadcast down the block, at (p, q): the row at q. -/
theorem bias0_apply (b : Vec Ideal S1x256 .f32) (p : Fin MB) (q : Fin 256) :
    broadcastTo OBlk (shapeCast S1x256 b shapeCasts_S1x256_S1x256) hBc (ix2 p q) = b (ix2 (0 : Fin 1) q) := by
  refine (broadcastTo_apply _ _ (ix2 p q) (ix2 (0 : Fin 1) q) fun a => ?_).trans (congrFun (shapeCast_self b _) _)
  match a with
  | ⟨0, _⟩ => exact (if_pos rfl).symm
  | ⟨1, _⟩ => exact (if_neg (show ¬ (256 : Nat) = 1 by decide)).symm

/-- The payload at (p, q) of the block. -/
theorem pay0_apply (x : Vec Ideal XBlk .f32) (w : Vec Ideal WArr .f32) (b : Vec Ideal S1x256 .f32) (p : Fin MB) (q : Fin 256) :
    k0_pay1 (F := Ideal) x w b (ix2 p q) = (∑ k : Fin KK, x (ix2 p k) * w (ix2 k q)) + b (ix2 (0 : Fin 1) q) := by
  unfold k0_pay1
  refine (addf_apply _ _ _).trans ?_
  refine congrArg₂ (· + ·) ((prod0_apply _ _ p q).trans (Finset.sum_congr rfl fun k _ => ?_)) (bias0_apply b p q)
  simp only [truncf_apply, shapeCast_self]

/-! ## From blocks to the array -/

/-- The printed index maps, decided over the grid: the rows' and the output's blocks move with the point, the
    weight and the bias row stay. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of `lin` of the arrays as the region finds them. -/
theorem flushed0_eq (c : Dev nD) (t : Fin cfg0.N) :
    (dat0 V c).flushed 3 t = ((cfg0.win 3).blk t).view.read (Elt Ideal) (Cert.Spec.lin (V c xref) (V c wref) (V c bref)) := by
  show (cfg0.win 3).cut (grid0.coords t) ((dat0 V c).after 3 t) = _
  rw [after0_3]
  unfold out0_3
  rw [View.canon_unit_zero hz0]
  simp only [View.ld_unit_zero (S := XBlk) hz0, View.ld_unit_zero (S := WArr) hz0, View.ld_unit_zero (S := S1x256) hz0]
  obtain ⟨e00, e01, e10, e11, e20, e21, e30, e31⟩ := idx_facts0 t
  have hN : grid0.N = GN := hGN
  have ht : t.val < GN := hN ▸ t.isLt
  funext j
  show k0_pay1 (iblk0 V c 0 t) (iblk0 V c 1 t) (iblk0 V c 2 t) j
    = Cert.Spec.lin (V c xref) (V c wref) (V c bref) (((cfg0.win 3).blk t).view.emb j)
  obtain ⟨p, q, rfl⟩ : ∃ (p : Fin MB) (q : Fin 256), j = ix2 p q := ⟨j 0, j 1, eq_ix2 j⟩
  have hP : t.val * MB + p.val < MT := by have := p.isLt; omega
  refine (pay0_apply (iblk0 V c 0 t) (iblk0 V c 1 t) (iblk0 V c 2 t) p q).trans
    (Eq.trans ?_ (Cert.Spec.lin_eq_of (V c xref) (V c wref) (V c bref) _ ⟨t.val * MB + p.val, hP⟩ q ?_ ?_).symm)
  · refine congrArg₂ (· + ·) (Finset.sum_congr rfl fun k _ => congrArg₂ (· * ·) ?_ ?_) ?_
    · show V c xref (((cfg0.win 0).blk t).view.emb (ix2 p k)) = V c xref (ix2 ⟨t.val * MB + p.val, hP⟩ k)
      refine congrArg (V c xref) (funext fun a => Fin.ext ?_)
      match a with
      | ⟨0, _⟩ => show win0_0.index t (0 : Fin 2) * MB + 1 * p.val = t.val * MB + p.val; omega
      | ⟨1, _⟩ => show win0_0.index t (1 : Fin 2) * KK + 1 * k.val = k.val; omega
    · show V c wref (((cfg0.win 1).blk t).view.emb (ix2 k q)) = V c wref (ix2 k q)
      refine congrArg (V c wref) (funext fun a => Fin.ext ?_)
      match a with
      | ⟨0, _⟩ => show win0_1.index t (0 : Fin 2) * KK + 1 * k.val = k.val; omega
      | ⟨1, _⟩ => show win0_1.index t (1 : Fin 2) * 256 + 1 * q.val = q.val; omega
    · show V c bref (((cfg0.win 2).blk t).view.emb (ix2 (0 : Fin 1) q)) = V c bref (ix2 (0 : Fin 1) q)
      refine congrArg (V c bref) (funext fun a => Fin.ext ?_)
      match a with
      | ⟨0, _⟩ => show win0_2.index t (0 : Fin 2) * 1 + 1 * 0 = 0; omega
      | ⟨1, _⟩ => show win0_2.index t (1 : Fin 2) * 256 + 1 * q.val = q.val; omega
  · show win0_3.index t (0 : Fin 2) * MB + 1 * p.val = t.val * MB + p.val; omega
  · show win0_3.index t (1 : Fin 2) * 256 + 1 * q.val = q.val; omega

/-- An index of the output array is in point `t`'s block iff each coordinate is in the block's range. -/
theorem mem_blk0 (t : Fin cfg0.N) (i : (OArr).Idx) :
    i ∈ ((cfg0.win 3).blk t).view.set ↔ ∀ a : Fin 2, win0_3.index t a * (OBlk).size a ≤ (i a).val ∧ (i a).val < win0_3.index t a * (OBlk).size a + (OBlk).size a := by
  show i ∈ ((View.whole oref).slice (win0_3.rect t)).set ↔ _
  rw [View.set_slice_whole, Rect.mem_set_unit]
  exact Iff.rfl

/-- Every index of the output array is in the block of the point its row falls in. -/
theorem cover0 (i : (OArr).Idx) : ∃ t : Fin cfg0.N, (cfg0.win 3).flush t = true ∧ i ∈ ((cfg0.win 3).blk t).view.set := by
  have hi0 : (i 0).val < MT := (i 0).isLt
  have hi1 : (i 1).val < 256 := (i 1).isLt
  have hN : grid0.N = GN := hGN
  have hlt : (i 0).val / MB < cfg0.N := by show (i 0).val / MB < grid0.N; rw [hN]; omega
  obtain ⟨-, -, -, -, -, -, e30, e31⟩ := idx_facts0 ⟨(i 0).val / MB, hlt⟩
  refine ⟨⟨(i 0).val / MB, hlt⟩, flush0_3 _, ?_⟩
  rw [mem_blk0]
  intro a
  match a with
  | ⟨0, _⟩ =>
    show win0_3.index ⟨(i 0).val / MB, hlt⟩ (0 : Fin 2) * MB ≤ (i 0).val ∧ (i 0).val < win0_3.index ⟨(i 0).val / MB, hlt⟩ (0 : Fin 2) * MB + MB
    rw [e30]
    show (i 0).val / MB * MB ≤ (i 0).val ∧ (i 0).val < (i 0).val / MB * MB + MB
    omega
  | ⟨1, _⟩ =>
    show win0_3.index ⟨(i 0).val / MB, hlt⟩ (1 : Fin 2) * 256 ≤ (i 1).val ∧ (i 1).val < win0_3.index ⟨(i 0).val / MB, hlt⟩ (1 : Fin 2) * 256 + 256
    omega

/-- The output array after the region: `lin` of the three arrays as the region finds them. -/
theorem final0 (c : Dev nD) : (dat0 V c).arrAt 3 cfg0.N = Cert.Spec.lin (V c xref) (V c wref) (V c bref) :=
  (dat0 V c).arrAt_eq_of_cover 3 _ (fun t _ => flushed0_eq V c t) cover0

end Cert.KernelIdeal.Lin

end
-- ==== Proof.KI.Value1.lean ====
/-
  What a projection's pallas_call leaves in its output array. The body's payload at (p, q) of a block is
  (∑ₖ x(p, k) · w(k, q)) + b(0, q) of the staged blocks: the matrix product into the zero accumulator is that sum,
  the changes of float format are the identity over the extended reals, and the broadcast bias row reads its column.
  Block t of the rows and of the output sit at rows t·(rows per block) …, the weight and the bias row are whole, so what
  point t writes back is block t of `lin` of the three arrays; the blocks cover the output array, which therefore ends
  as `lin` of the arrays the region was entered with.
-/
import proofs.«168344_j76063870812687_1_alg».proof.Proof.KI.Region1
import proofs.«168344_j76063870812687_1_alg».proof.Proof.Spec
import proofs.«168344_j76063870812687_1_alg».proof.Proof.LibRowwise
import Idealize.ShloMosaic.Lib.Pipeline.Value
import Idealize.ShloMosaic.Lib.ValueIdx
import Idealize.ShloMosaic.PureOps.Ideal.Laws

set_option maxRecDepth 16384

noncomputable section

namespace Cert.KernelIdeal.Lin

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

-- the sizes and names of this projection
local notation "XArr" => S278528x256
local notation "XBlk" => S4096x256
local notation "WArr" => S256x256
local notation "OArr" => S278528x256
local notation "OBlk" => S4096x256
local notation "MT" => 278528
local notation "MB" => 4096
local notation "KK" => 256
local notation "GN" => 68
local notation "hGN" => N_1
local notation "xref" => main_v4
local notation "wref" => main_arg8
local notation "bref" => main_v5
local notation "oref" => main_v6
local notation "theDot" => dot_S4096x256_S256x256_S4096x256_1_0_0_1_n_n
local notation "hBc" => broadcasts_S1x256_S4096x256

variable (V : (c : Dev nD) → (b : Ref sig .tc) → Buf (Elt Ideal) ((c : Thread nD τ).loc b))

theorem hz1 : (![0, 0] : Fin 2 → Nat) = fun _ => 0 := funext fun a => by fin_cases a <;> rfl

/-! ## The payload at an index -/

/-- The body's matrix product into the zero accumulator, at (p, q): the sum over the contracted coordinate. -/
theorem prod1_apply (x' : FVec Ideal XBlk .bf16) (w' : FVec Ideal WArr .bf16) (p : Fin MB) (q : Fin 256) :
    matmul theDot none x' w' (constant OBlk .f32 0x00000000#32) (ix2 p q) = ∑ k : Fin KK, x' (ix2 p k) * w' (ix2 k q) := by
  have hD : theDot = DotDims.plain MB KK 256 := Cert.Lib.Rowwise.eq_plain _ rfl rfl rfl rfl rfl rfl
  rw [hD]
  exact Cert.Lib.Rowwise.plain_matmul_zero_apply none x' w' p q

/-- The bias row broadcast down the block, at (p, q): the row at q. -/
theorem bias1_apply (b : Vec Ideal S1x256 .f32) (p : Fin MB) (q : Fin 256) :
    broadcastTo OBlk (shapeCast S1x256 b shapeCasts_S1x256_S1x256) hBc (ix2 p q) = b (ix2 (0 : Fin 1) q) := by
  refine (broadcastTo_apply _ _ (ix2 p q) (ix2 (0 : Fin 1) q) fun a => ?_).trans (congrFun (shapeCast_self b _) _)
  match a with
  | ⟨0, _⟩ => exact (if_pos rfl).symm
  | ⟨1, _⟩ => exact (if_neg (show ¬ (256 : Nat) = 1 by decide)).symm

/-- The payload at (p, q) of the block. -/
theorem pay1_apply (x : Vec Ideal XBlk .f32) (w : Vec Ideal WArr .f32) (b : Vec Ideal S1x256 .f32) (p : Fin MB) (q : Fin 256) :
    k1_pay1 (F := Ideal) x w b (ix2 p q) = (∑ k : Fin KK, x (ix2 p k) * w (ix2 k q)) + b (ix2 (0 : Fin 1) q) := by
  unfold k1_pay1
  refine (addf_apply _ _ _).trans ?_
  refine congrArg₂ (· + ·) ((prod1_apply _ _ p q).trans (Finset.sum_congr rfl fun k _ => ?_)) (bias1_apply b p q)
  simp only [truncf_apply, shapeCast_self]

/-! ## From blocks to the array -/

/-- The printed index maps, decided over the grid: the rows' and the output's blocks move with the point, the
    weight and the bias row stay. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of `lin` of the arrays as the region finds them. -/
theorem flushed1_eq (c : Dev nD) (t : Fin cfg1.N) :
    (dat1 V c).flushed 3 t = ((cfg1.win 3).blk t).view.read (Elt Ideal) (Cert.Spec.lin (V c xref) (V c wref) (V c bref)) := by
  show (cfg1.win 3).cut (grid1.coords t) ((dat1 V c).after 3 t) = _
  rw [after1_3]
  unfold out1_3
  rw [View.canon_unit_zero hz1]
  simp only [View.ld_unit_zero (S := XBlk) hz1, View.ld_unit_zero (S := WArr) hz1, View.ld_unit_zero (S := S1x256) hz1]
  obtain ⟨e00, e01, e10, e11, e20, e21, e30, e31⟩ := idx_facts1 t
  have hN : grid1.N = GN := hGN
  have ht : t.val < GN := hN ▸ t.isLt
  funext j
  show k1_pay1 (iblk1 V c 0 t) (iblk1 V c 1 t) (iblk1 V c 2 t) j
    = Cert.Spec.lin (V c xref) (V c wref) (V c bref) (((cfg1.win 3).blk t).view.emb j)
  obtain ⟨p, q, rfl⟩ : ∃ (p : Fin MB) (q : Fin 256), j = ix2 p q := ⟨j 0, j 1, eq_ix2 j⟩
  have hP : t.val * MB + p.val < MT := by have := p.isLt; omega
  refine (pay1_apply (iblk1 V c 0 t) (iblk1 V c 1 t) (iblk1 V c 2 t) p q).trans
    (Eq.trans ?_ (Cert.Spec.lin_eq_of (V c xref) (V c wref) (V c bref) _ ⟨t.val * MB + p.val, hP⟩ q ?_ ?_).symm)
  · refine congrArg₂ (· + ·) (Finset.sum_congr rfl fun k _ => congrArg₂ (· * ·) ?_ ?_) ?_
    · show V c xref (((cfg1.win 0).blk t).view.emb (ix2 p k)) = V c xref (ix2 ⟨t.val * MB + p.val, hP⟩ k)
      refine congrArg (V c xref) (funext fun a => Fin.ext ?_)
      match a with
      | ⟨0, _⟩ => show win1_0.index t (0 : Fin 2) * MB + 1 * p.val = t.val * MB + p.val; omega
      | ⟨1, _⟩ => show win1_0.index t (1 : Fin 2) * KK + 1 * k.val = k.val; omega
    · show V c wref (((cfg1.win 1).blk t).view.emb (ix2 k q)) = V c wref (ix2 k q)
      refine congrArg (V c wref) (funext fun a => Fin.ext ?_)
      match a with
      | ⟨0, _⟩ => show win1_1.index t (0 : Fin 2) * KK + 1 * k.val = k.val; omega
      | ⟨1, _⟩ => show win1_1.index t (1 : Fin 2) * 256 + 1 * q.val = q.val; omega
    · show V c bref (((cfg1.win 2).blk t).view.emb (ix2 (0 : Fin 1) q)) = V c bref (ix2 (0 : Fin 1) q)
      refine congrArg (V c bref) (funext fun a => Fin.ext ?_)
      match a with
      | ⟨0, _⟩ => show win1_2.index t (0 : Fin 2) * 1 + 1 * 0 = 0; omega
      | ⟨1, _⟩ => show win1_2.index t (1 : Fin 2) * 256 + 1 * q.val = q.val; omega
  · show win1_3.index t (0 : Fin 2) * MB + 1 * p.val = t.val * MB + p.val; omega
  · show win1_3.index t (1 : Fin 2) * 256 + 1 * q.val = q.val; omega

/-- An index of the output array is in point `t`'s block iff each coordinate is in the block's range. -/
theorem mem_blk1 (t : Fin cfg1.N) (i : (OArr).Idx) :
    i ∈ ((cfg1.win 3).blk t).view.set ↔ ∀ a : Fin 2, win1_3.index t a * (OBlk).size a ≤ (i a).val ∧ (i a).val < win1_3.index t a * (OBlk).size a + (OBlk).size a := by
  show i ∈ ((View.whole oref).slice (win1_3.rect t)).set ↔ _
  rw [View.set_slice_whole, Rect.mem_set_unit]
  exact Iff.rfl

/-- Every index of the output array is in the block of the point its row falls in. -/
theorem cover1 (i : (OArr).Idx) : ∃ t : Fin cfg1.N, (cfg1.win 3).flush t = true ∧ i ∈ ((cfg1.win 3).blk t).view.set := by
  have hi0 : (i 0).val < MT := (i 0).isLt
  have hi1 : (i 1).val < 256 := (i 1).isLt
  have hN : grid1.N = GN := hGN
  have hlt : (i 0).val / MB < cfg1.N := by show (i 0).val / MB < grid1.N; rw [hN]; omega
  obtain ⟨-, -, -, -, -, -, e30, e31⟩ := idx_facts1 ⟨(i 0).val / MB, hlt⟩
  refine ⟨⟨(i 0).val / MB, hlt⟩, flush1_3 _, ?_⟩
  rw [mem_blk1]
  intro a
  match a with
  | ⟨0, _⟩ =>
    show win1_3.index ⟨(i 0).val / MB, hlt⟩ (0 : Fin 2) * MB ≤ (i 0).val ∧ (i 0).val < win1_3.index ⟨(i 0).val / MB, hlt⟩ (0 : Fin 2) * MB + MB
    rw [e30]
    show (i 0).val / MB * MB ≤ (i 0).val ∧ (i 0).val < (i 0).val / MB * MB + MB
    omega
  | ⟨1, _⟩ =>
    show win1_3.index ⟨(i 0).val / MB, hlt⟩ (1 : Fin 2) * 256 ≤ (i 1).val ∧ (i 1).val < win1_3.index ⟨(i 0).val / MB, hlt⟩ (1 : Fin 2) * 256 + 256
    omega

/-- The output array after the region: `lin` of the three arrays as the region finds them. -/
theorem final1 (c : Dev nD) : (dat1 V c).arrAt 3 cfg1.N = Cert.Spec.lin (V c xref) (V c wref) (V c bref) :=
  (dat1 V c).arrAt_eq_of_cover 3 _ (fun t _ => flushed1_eq V c t) cover1

end Cert.KernelIdeal.Lin

end
-- ==== Proof.KI.Value2.lean ====
/-
  What a projection's pallas_call leaves in its output array. The body's payload at (p, q) of a block is
  (∑ₖ x(p, k) · w(k, q)) + b(0, q) of the staged blocks: the matrix product into the zero accumulator is that sum,
  the changes of float format are the identity over the extended reals, and the broadcast bias row reads its column.
  Block t of the rows and of the output sit at rows t·(rows per block) …, the weight and the bias row are whole, so what
  point t writes back is block t of `lin` of the three arrays; the blocks cover the output array, which therefore ends
  as `lin` of the arrays the region was entered with.
-/
import proofs.«168344_j76063870812687_1_alg».proof.Proof.KI.Region2
import proofs.«168344_j76063870812687_1_alg».proof.Proof.Spec
import proofs.«168344_j76063870812687_1_alg».proof.Proof.LibRowwise
import Idealize.ShloMosaic.Lib.Pipeline.Value
import Idealize.ShloMosaic.Lib.ValueIdx
import Idealize.ShloMosaic.PureOps.Ideal.Laws

set_option maxRecDepth 16384

noncomputable section

namespace Cert.KernelIdeal.Lin

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

-- the sizes and names of this projection
local notation "XArr" => S4096x7
local notation "XBlk" => S4096x7
local notation "WArr" => S7x256
local notation "OArr" => S4096x256
local notation "OBlk" => S4096x256
local notation "MT" => 4096
local notation "MB" => 4096
local notation "KK" => 7
local notation "GN" => 1
local notation "hGN" => N_2
local notation "xref" => main_v11
local notation "wref" => main_arg6
local notation "bref" => main_v12
local notation "oref" => main_v13
local notation "theDot" => dot_S4096x7_S7x256_S4096x256_1_0_0_1_n_n
local notation "hBc" => broadcasts_S1x256_S4096x256

variable (V : (c : Dev nD) → (b : Ref sig .tc) → Buf (Elt Ideal) ((c : Thread nD τ).loc b))

theorem hz2 : (![0, 0] : Fin 2 → Nat) = fun _ => 0 := funext fun a => by fin_cases a <;> rfl

/-! ## The payload at an index -/

/-- The body's matrix product into the zero accumulator, at (p, q): the sum over the contracted coordinate. -/
theorem prod2_apply (x' : FVec Ideal XBlk .bf16) (w' : FVec Ideal WArr .bf16) (p : Fin MB) (q : Fin 256) :
    matmul theDot none x' w' (constant OBlk .f32 0x00000000#32) (ix2 p q) = ∑ k : Fin KK, x' (ix2 p k) * w' (ix2 k q) := by
  have hD : theDot = DotDims.plain MB KK 256 := Cert.Lib.Rowwise.eq_plain _ rfl rfl rfl rfl rfl rfl
  rw [hD]
  exact Cert.Lib.Rowwise.plain_matmul_zero_apply none x' w' p q

/-- The bias row broadcast down the block, at (p, q): the row at q. -/
theorem bias2_apply (b : Vec Ideal S1x256 .f32) (p : Fin MB) (q : Fin 256) :
    broadcastTo OBlk (shapeCast S1x256 b shapeCasts_S1x256_S1x256) hBc (ix2 p q) = b (ix2 (0 : Fin 1) q) := by
  refine (broadcastTo_apply _ _ (ix2 p q) (ix2 (0 : Fin 1) q) fun a => ?_).trans (congrFun (shapeCast_self b _) _)
  match a with
  | ⟨0, _⟩ => exact (if_pos rfl).symm
  | ⟨1, _⟩ => exact (if_neg (show ¬ (256 : Nat) = 1 by decide)).symm

/-- The payload at (p, q) of the block. -/
theorem pay2_apply (x : Vec Ideal XBlk .f32) (w : Vec Ideal WArr .f32) (b : Vec Ideal S1x256 .f32) (p : Fin MB) (q : Fin 256) :
    k2_pay1 (F := Ideal) x w b (ix2 p q) = (∑ k : Fin KK, x (ix2 p k) * w (ix2 k q)) + b (ix2 (0 : Fin 1) q) := by
  unfold k2_pay1
  refine (addf_apply _ _ _).trans ?_
  refine congrArg₂ (· + ·) ((prod2_apply _ _ p q).trans (Finset.sum_congr rfl fun k _ => ?_)) (bias2_apply b p q)
  simp only [truncf_apply, shapeCast_self]

/-! ## From blocks to the array -/

/-- The printed index maps, decided over the grid: the rows' and the output's blocks move with the point, the
    weight and the bias row stay. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point `t` writes back is block `t` of `lin` of the arrays as the region finds them. -/
theorem flushed2_eq (c : Dev nD) (t : Fin cfg2.N) :
    (dat2 V c).flushed 3 t = ((cfg2.win 3).blk t).view.read (Elt Ideal) (Cert.Spec.lin (V c xref) (V c wref) (V c bref)) := by
  show (cfg2.win 3).cut (grid2.coords t) ((dat2 V c).after 3 t) = _
  rw [after2_3]
  unfold out2_3
  rw [View.canon_unit_zero hz2]
  simp only [View.ld_unit_zero (S := XBlk) hz2, View.ld_unit_zero (S := WArr) hz2, View.ld_unit_zero (S := S1x256) hz2]
  obtain ⟨e00, e01, e10, e11, e20, e21, e30, e31⟩ := idx_facts2 t
  have hN : grid2.N = GN := hGN
  have ht : t.val < GN := hN ▸ t.isLt
  funext j
  show k2_pay1 (iblk2 V c 0 t) (iblk2 V c 1 t) (iblk2 V c 2 t) j
    = Cert.Spec.lin (V c xref) (V c wref) (V c bref) (((cfg2.win 3).blk t).view.emb j)
  obtain ⟨p, q, rfl⟩ : ∃ (p : Fin MB) (q : Fin 256), j = ix2 p q := ⟨j 0, j 1, eq_ix2 j⟩
  have hP : t.val * MB + p.val < MT := by have := p.isLt; omega
  refine (pay2_apply (iblk2 V c 0 t) (iblk2 V c 1 t) (iblk2 V c 2 t) p q).trans
    (Eq.trans ?_ (Cert.Spec.lin_eq_of (V c xref) (V c wref) (V c bref) _ ⟨t.val * MB + p.val, hP⟩ q ?_ ?_).symm)
  · refine congrArg₂ (· + ·) (Finset.sum_congr rfl fun k _ => congrArg₂ (· * ·) ?_ ?_) ?_
    · show V c xref (((cfg2.win 0).blk t).view.emb (ix2 p k)) = V c xref (ix2 ⟨t.val * MB + p.val, hP⟩ k)
      refine congrArg (V c xref) (funext fun a => Fin.ext ?_)
      match a with
      | ⟨0, _⟩ => show win2_0.index t (0 : Fin 2) * MB + 1 * p.val = t.val * MB + p.val; omega
      | ⟨1, _⟩ => show win2_0.index t (1 : Fin 2) * KK + 1 * k.val = k.val; omega
    · show V c wref (((cfg2.win 1).blk t).view.emb (ix2 k q)) = V c wref (ix2 k q)
      refine congrArg (V c wref) (funext fun a => Fin.ext ?_)
      match a with
      | ⟨0, _⟩ => show win2_1.index t (0 : Fin 2) * KK + 1 * k.val = k.val; omega
      | ⟨1, _⟩ => show win2_1.index t (1 : Fin 2) * 256 + 1 * q.val = q.val; omega
    · show V c bref (((cfg2.win 2).blk t).view.emb (ix2 (0 : Fin 1) q)) = V c bref (ix2 (0 : Fin 1) q)
      refine congrArg (V c bref) (funext fun a => Fin.ext ?_)
      match a with
      | ⟨0, _⟩ => show win2_2.index t (0 : Fin 2) * 1 + 1 * 0 = 0; omega
      | ⟨1, _⟩ => show win2_2.index t (1 : Fin 2) * 256 + 1 * q.val = q.val; omega
  · show win2_3.index t (0 : Fin 2) * MB + 1 * p.val = t.val * MB + p.val; omega
  · show win2_3.index t (1 : Fin 2) * 256 + 1 * q.val = q.val; omega

/-- An index of the output array is in point `t`'s block iff each coordinate is in the block's range. -/
theorem mem_blk2 (t : Fin cfg2.N) (i : (OArr).Idx) :
    i ∈ ((cfg2.win 3).blk t).view.set ↔ ∀ a : Fin 2, win2_3.index t a * (OBlk).size a ≤ (i a).val ∧ (i a).val < win2_3.index t a * (OBlk).size a + (OBlk).size a := by
  show i ∈ ((View.whole oref).slice (win2_3.rect t)).set ↔ _
  rw [View.set_slice_whole, Rect.mem_set_unit]
  exact Iff.rfl

/-- Every index of the output array is in the block of the point its row falls in. -/
theorem cover2 (i : (OArr).Idx) : ∃ t : Fin cfg2.N, (cfg2.win 3).flush t = true ∧ i ∈ ((cfg2.win 3).blk t).view.set := by
  have hi0 : (i 0).val < MT := (i 0).isLt
  have hi1 : (i 1).val < 256 := (i 1).isLt
  have hN : grid2.N = GN := hGN
  have hlt : (i 0).val / MB < cfg2.N := by show (i 0).val / MB < grid2.N; rw [hN]; omega
  obtain ⟨-, -, -, -, -, -, e30, e31⟩ := idx_facts2 ⟨(i 0).val / MB, hlt⟩
  refine ⟨⟨(i 0).val / MB, hlt⟩, flush2_3 _, ?_⟩
  rw [mem_blk2]
  intro a
  match a with
  | ⟨0, _⟩ =>
    show win2_3.index ⟨(i 0).val / MB, hlt⟩ (0 : Fin 2) * MB ≤ (i 0).val ∧ (i 0).val < win2_3.index ⟨(i 0).val / MB, hlt⟩ (0 : Fin 2) * MB + MB
    rw [e30]
    show (i 0).val / MB * MB ≤ (i 0).val ∧ (i 0).val < (i 0).val / MB * MB + MB
    omega
  | ⟨1, _⟩ =>
    show win2_3.index ⟨(i 0).val / MB, hlt⟩ (1 : Fin 2) * 256 ≤ (i 1).val ∧ (i 1).val < win2_3.index ⟨(i 0).val / MB, hlt⟩ (1 : Fin 2) * 256 + 256
    omega

/-- The output array after the region: `lin` of the three arrays as the region finds them. -/
theorem final2 (c : Dev nD) : (dat2 V c).arrAt 3 cfg2.N = Cert.Spec.lin (V c xref) (V c wref) (V c bref) :=
  (dat2 V c).arrAt_eq_of_cover 3 _ (fun t _ => flushed2_eq V c t) cover2

end Cert.KernelIdeal.Lin

end
-- ==== Proof.KI.Final.lean ====
/-
  What the idealized kernel's @main leaves in its result, as a function of the ten argument arrays. Following the
  buffers through the run: the instruction tokens are `lin` of the instruction rows, their weight and their bias as a
  row; the demonstrations' object rows, flattened, stacked on the current object rows, flattened, go through `lin`
  with the object weight and bias, and the result is cut back into the two groups and re-laid in their shapes; the
  action rows, flattened, go through `lin` with the action weight and bias and are re-laid per demonstration; the
  last stretch joins each demonstration's object tokens with its action token, swaps the first two axes, flattens the
  demonstrations into one axis, and puts the instruction token before and the current object tokens after.
-/
import proofs.«168344_j76063870812687_1_alg».proof.Proof.KI.Kept
import proofs.«168344_j76063870812687_1_alg».proof.Proof.KI.Value0
import proofs.«168344_j76063870812687_1_alg».proof.Proof.KI.Value1
import proofs.«168344_j76063870812687_1_alg».proof.Proof.KI.Value2
import Idealize.ShloMosaic.Lib.StableHlo.Run

set_option maxRecDepth 16384

noncomputable section

namespace Cert.KernelIdeal.Lin

open Cert.KernelIdeal Cert.KernelIdeal.Gen
open Idealize.ShloMosaic Idealize.ShloMosaic.TcCoe Idealize.ShloMosaic.StableHlo
open Idealize.SL Idealize.SL.Sem

/-! ## The pieces, as functions of the arrays -/

/-- A bias as a row. -/
def row (b : Vec Ideal S256 .f32) : Vec Ideal S1x256 .f32 := shapeCast S1x256 b shapeCasts_S256_S1x256

/-- The demonstrations' object rows, flattened, stacked on the current object rows, flattened. -/
def objRows (x1 : Vec Ideal S16x256x64x256 .f32) (x3 : Vec Ideal S256x64x256 .f32) : Vec Ideal S278528x256 .f32 :=
  concatenate S278528x256 0 [⟨S262144x256, shapeCast S262144x256 x1 shapeCasts_S16x256x64x256_S262144x256⟩,
    ⟨S16384x256, shapeCast S16384x256 x3 shapeCasts_S256x64x256_S16384x256⟩] concatenates_S262144x256_S16384x256_S278528x256_d0

/-- The instruction tokens. -/
def instrTok (x0 : Vec Ideal S256x768 .f32) (x4 : Vec Ideal S768x256 .f32) (x5 : Vec Ideal S256 .f32) : Vec Ideal S256x256 .f32 :=
  Cert.Spec.lin x0 x4 (row x5)

/-- All object tokens, one row per object. -/
def objTok (x1 : Vec Ideal S16x256x64x256 .f32) (x3 : Vec Ideal S256x64x256 .f32) (x8 : Vec Ideal S256x256 .f32) (x9 : Vec Ideal S256 .f32) :
    Vec Ideal S278528x256 .f32 :=
  Cert.Spec.lin (objRows x1 x3) x8 (row x9)

/-- The demonstrations' object tokens, re-laid per demonstration, example and object. -/
def demoTok (x1 : Vec Ideal S16x256x64x256 .f32) (x3 : Vec Ideal S256x64x256 .f32) (x8 : Vec Ideal S256x256 .f32) (x9 : Vec Ideal S256 .f32) :
    Vec Ideal S16x256x64x256 .f32 :=
  shapeCast S16x256x64x256 (extractStridedSlice S262144x256 ![0, 0] (objTok x1 x3 x8 x9) slices_S278528x256_S262144x256_0_0)
    shapeCasts_S262144x256_S16x256x64x256

/-- The current object tokens, re-laid per example and object. -/
def curTok (x1 : Vec Ideal S16x256x64x256 .f32) (x3 : Vec Ideal S256x64x256 .f32) (x8 : Vec Ideal S256x256 .f32) (x9 : Vec Ideal S256 .f32) :
    Vec Ideal S256x64x256 .f32 :=
  shapeCast S256x64x256 (extractStridedSlice S16384x256 ![262144, 0] (objTok x1 x3 x8 x9) slices_S278528x256_S16384x256_262144_0)
    shapeCasts_S16384x256_S256x64x256

/-- The action rows, flattened. -/
def actRows (x2 : Vec Ideal S16x256x7 .f32) : Vec Ideal S4096x7 .f32 := shapeCast S4096x7 x2 shapeCasts_S16x256x7_S4096x7

/-- The action tokens, re-laid per demonstration and example. -/
def actTok (x2 : Vec Ideal S16x256x7 .f32) (x6 : Vec Ideal S7x256 .f32) (x7 : Vec Ideal S256 .f32) : Vec Ideal S16x256x256 .f32 :=
  shapeCast S16x256x256 (Cert.Spec.lin (actRows x2) x6 (row x7)) shapeCasts_S4096x256_S16x256x256

/-- The sequence: the instruction token, then per demonstration its object tokens and its action token, then the
    current object tokens. -/
def seqOf (a : Vec Ideal S256x256 .f32) (b : Vec Ideal S16x256x64x256 .f32) (d : Vec Ideal S16x256x256 .f32) (e : Vec Ideal S256x64x256 .f32) :
    Vec Ideal S256x1105x256 .f32 :=
  concatenate S256x1105x256 1 [⟨S256x1x256, broadcastInDim S256x1x256 ![0, 2] bcast_S256x256_S256x1x256_0_2 a⟩,
    ⟨S256x1040x256, shapeCast S256x1040x256 (transpose S256x16x65x256 [1, 0, 2, 3]
      (concatenate S16x256x65x256 2 [⟨S16x256x64x256, b⟩,
        ⟨S16x256x1x256, broadcastInDim S16x256x1x256 ![0, 1, 3] bcast_S16x256x256_S16x256x1x256_0_1_3 d⟩]
        concatenates_S16x256x64x256_S16x256x1x256_S16x256x65x256_d2)
      transposes_S16x256x65x256_S256x16x65x256_1_0_2_3) shapeCasts_S256x16x65x256_S256x1040x256⟩,
    ⟨S256x64x256, e⟩] concatenates_S256x1x256_S256x1040x256_S256x64x256_S256x1105x256_d1

variable (m : (ℓ : Loc nD τ sig) → Buf (Elt Ideal) ℓ) (ρ : Dev nD → PrngReg)

/-! ## The instruction projection -/

theorem W1_v0 (c : Dev nD) : W1 m ρ c (Proc.devRef .tc main_v0) = row (m ((c : Thread nD τ).loc main_arg5)) := by
  show StableHlo.after hostOps0 (W0 m ρ c) (Proc.devRef .tc main_v0) = _
  after_results
  rfl

theorem W2_v1 (c : Dev nD) : W2 m ρ c (Proc.devRef .tc main_v1) = instrTok (m ((c : Thread nD τ).loc main_arg0)) (m ((c : Thread nD τ).loc main_arg4)) (m ((c : Thread nD τ).loc main_arg5)) :=
  (W2_arr m ρ c 3).trans ((final0 (V1 m ρ) c).trans
    (Cert.Spec.lin_congr ((host0_keep m ρ c main_arg0 (by decide)).trans rfl) ((host0_keep m ρ c main_arg4 (by decide)).trans rfl) (W1_v0 m ρ c)))

/-! ## The object projection -/

theorem W2_arg (c : Dev nD) (r : Ref sig .tc) (h0 : r ∉ hostOps0_W) (h1 : ∀ w, Pipeline.arrRef spec0 w ≠ r) :
    W2 m ρ c (Proc.devRef .tc r) = m ((c : Thread nD τ).loc r) :=
  (reg0_keep m ρ c r h1).trans ((host0_keep m ρ c r h0).trans rfl)

theorem W3_v4 (c : Dev nD) : W3 m ρ c (Proc.devRef .tc main_v4) = objRows (m ((c : Thread nD τ).loc main_arg1)) (m ((c : Thread nD τ).loc main_arg3)) := by
  show StableHlo.after hostOps1 (W2 m ρ c) (Proc.devRef .tc main_v4) = _
  after_results
  rw [W2_arg m ρ c main_arg1 (by decide) (by decide), W2_arg m ρ c main_arg3 (by decide) (by decide)]
  rfl

theorem W3_v5 (c : Dev nD) : W3 m ρ c (Proc.devRef .tc main_v5) = row (m ((c : Thread nD τ).loc main_arg9)) := by
  show StableHlo.after hostOps1 (W2 m ρ c) (Proc.devRef .tc main_v5) = _
  after_results
  rw [W2_arg m ρ c main_arg9 (by decide) (by decide)]
  rfl

theorem W3_arg8 (c : Dev nD) : W3 m ρ c (Proc.devRef .tc main_arg8) = (m ((c : Thread nD τ).loc main_arg8)) :=
  (host1_keep m ρ c main_arg8 (by decide)).trans (W2_arg m ρ c main_arg8 (by decide) (by decide))

theorem W4_v6 (c : Dev nD) : W4 m ρ c (Proc.devRef .tc main_v6) = objTok (m ((c : Thread nD τ).loc main_arg1)) (m ((c : Thread nD τ).loc main_arg3)) (m ((c : Thread nD τ).loc main_arg8)) (m ((c : Thread nD τ).loc main_arg9)) :=
  (W4_arr m ρ c 3).trans ((final1 (V3 m ρ) c).trans (Cert.Spec.lin_congr (W3_v4 m ρ c) (W3_arg8 m ρ c) (W3_v5 m ρ c)))

/-! ## The cut, and the action projection -/

theorem W4_arg (c : Dev nD) (r : Ref sig .tc) (h0 : r ∉ hostOps0_W) (h1 : ∀ w, Pipeline.arrRef spec0 w ≠ r)
    (h2 : r ∉ hostOps1_W) (h3 : ∀ w, Pipeline.arrRef spec1 w ≠ r) : W4 m ρ c (Proc.devRef .tc r) = m ((c : Thread nD τ).loc r) :=
  (reg1_keep m ρ c r h3).trans ((host1_keep m ρ c r h2).trans (W2_arg m ρ c r h0 h1))

theorem W5_v8 (c : Dev nD) : W5 m ρ c (Proc.devRef .tc main_v8) = demoTok (m ((c : Thread nD τ).loc main_arg1)) (m ((c : Thread nD τ).loc main_arg3)) (m ((c : Thread nD τ).loc main_arg8)) (m ((c : Thread nD τ).loc main_arg9)) := by
  show StableHlo.after hostOps2 (W4 m ρ c) (Proc.devRef .tc main_v8) = _
  after_results
  rw [W4_v6 m ρ c]
  rfl

theorem W5_v10 (c : Dev nD) : W5 m ρ c (Proc.devRef .tc main_v10) = curTok (m ((c : Thread nD τ).loc main_arg1)) (m ((c : Thread nD τ).loc main_arg3)) (m ((c : Thread nD τ).loc main_arg8)) (m ((c : Thread nD τ).loc main_arg9)) := by
  show StableHlo.after hostOps2 (W4 m ρ c) (Proc.devRef .tc main_v10) = _
  after_results
  rw [W4_v6 m ρ c]
  rfl

theorem W5_v11 (c : Dev nD) : W5 m ρ c (Proc.devRef .tc main_v11) = actRows (m ((c : Thread nD τ).loc main_arg2)) := by
  show StableHlo.after hostOps2 (W4 m ρ c) (Proc.devRef .tc main_v11) = _
  after_results
  rw [W4_arg m ρ c main_arg2 (by decide) (by decide) (by decide) (by decide)]
  rfl

theorem W5_v12 (c : Dev nD) : W5 m ρ c (Proc.devRef .tc main_v12) = row (m ((c : Thread nD τ).loc main_arg7)) := by
  show StableHlo.after hostOps2 (W4 m ρ c) (Proc.devRef .tc main_v12) = _
  after_results
  rw [W4_arg m ρ c main_arg7 (by decide) (by decide) (by decide) (by decide)]
  rfl

theorem W5_arg6 (c : Dev nD) : W5 m ρ c (Proc.devRef .tc main_arg6) = (m ((c : Thread nD τ).loc main_arg6)) :=
  (host2_keep m ρ c main_arg6 (by decide)).trans (W4_arg m ρ c main_arg6 (by decide) (by decide) (by decide) (by decide))

theorem W6_v13 (c : Dev nD) : W6 m ρ c (Proc.devRef .tc main_v13) = Cert.Spec.lin (actRows (m ((c : Thread nD τ).loc main_arg2))) (m ((c : Thread nD τ).loc main_arg6)) (row (m ((c : Thread nD τ).loc main_arg7))) :=
  (W6_arr m ρ c 3).trans ((final2 (V5 m ρ) c).trans (Cert.Spec.lin_congr (W5_v11 m ρ c) (W5_arg6 m ρ c) (W5_v12 m ρ c)))

theorem W6_v1 (c : Dev nD) : W6 m ρ c (Proc.devRef .tc main_v1) = instrTok (m ((c : Thread nD τ).loc main_arg0)) (m ((c : Thread nD τ).loc main_arg4)) (m ((c : Thread nD τ).loc main_arg5)) :=
  (reg2_keep m ρ c main_v1 (by decide)).trans <| (host2_keep m ρ c main_v1 (by decide)).trans <|
    (reg1_keep m ρ c main_v1 (by decide)).trans <| (host1_keep m ρ c main_v1 (by decide)).trans (W2_v1 m ρ c)

theorem W6_v8 (c : Dev nD) : W6 m ρ c (Proc.devRef .tc main_v8) = demoTok (m ((c : Thread nD τ).loc main_arg1)) (m ((c : Thread nD τ).loc main_arg3)) (m ((c : Thread nD τ).loc main_arg8)) (m ((c : Thread nD τ).loc main_arg9)) :=
  (reg2_keep m ρ c main_v8 (by decide)).trans (W5_v8 m ρ c)

theorem W6_v10 (c : Dev nD) : W6 m ρ c (Proc.devRef .tc main_v10) = curTok (m ((c : Thread nD τ).loc main_arg1)) (m ((c : Thread nD τ).loc main_arg3)) (m ((c : Thread nD τ).loc main_arg8)) (m ((c : Thread nD τ).loc main_arg9)) :=
  (reg2_keep m ρ c main_v10 (by decide)).trans (W5_v10 m ρ c)

/-! ## The assembly -/

/-- The last stretch without its closing join. -/
abbrev lastOps : List (HloOp τ sig (Elt Ideal)) :=
  [ StableHlo.reshape main_v13 main_v14 rfl shapeCasts_S4096x256_S16x256x256,
    StableHlo.unary main_v14 main_v15 (broadcastInDim S16x256x1x256 ![0, 1, 3] bcast_S16x256x256_S16x256x1x256_0_1_3 : (⟨S16x256x256, .f32⟩ : BufTy).Contents (Elt Ideal) → (⟨S16x256x1x256, .f32⟩ : BufTy).Contents (Elt Ideal)),
    StableHlo.binary main_v8 main_v15 main_v16 ((fun a b => concatenate S16x256x65x256 2 [⟨S16x256x64x256, a⟩, ⟨S16x256x1x256, b⟩] concatenates_S16x256x64x256_S16x256x1x256_S16x256x65x256_d2) : (⟨S16x256x64x256, .f32⟩ : BufTy).Contents (Elt Ideal) → (⟨S16x256x1x256, .f32⟩ : BufTy).Contents (Elt Ideal) → (⟨S16x256x65x256, .f32⟩ : BufTy).Contents (Elt Ideal)),
    StableHlo.unary main_v16 main_v17 ((transpose S256x16x65x256 [1, 0, 2, 3] · transposes_S16x256x65x256_S256x16x65x256_1_0_2_3) : (⟨S16x256x65x256, .f32⟩ : BufTy).Contents (Elt Ideal) → (⟨S256x16x65x256, .f32⟩ : BufTy).Contents (Elt Ideal)),
    StableHlo.reshape main_v17 main_v18 rfl shapeCasts_S256x16x65x256_S256x1040x256,
    StableHlo.unary main_v1 main_v19 (broadcastInDim S256x1x256 ![0, 2] bcast_S256x256_S256x1x256_0_2 : (⟨S256x256, .f32⟩ : BufTy).Contents (Elt Ideal) → (⟨S256x1x256, .f32⟩ : BufTy).Contents (Elt Ideal)) ]

theorem last_v19 (c : Dev nD) : StableHlo.after lastOps (W6 m ρ c) (Proc.devRef .tc main_v19)
    = broadcastInDim S256x1x256 ![0, 2] bcast_S256x256_S256x1x256_0_2 (instrTok (m ((c : Thread nD τ).loc main_arg0)) (m ((c : Thread nD τ).loc main_arg4)) (m ((c : Thread nD τ).loc main_arg5))) := by
  after_results
  rw [W6_v1 m ρ c]

theorem last_v18 (c : Dev nD) : StableHlo.after lastOps (W6 m ρ c) (Proc.devRef .tc main_v18)
    = shapeCast S256x1040x256 (transpose S256x16x65x256 [1, 0, 2, 3]
        (concatenate S16x256x65x256 2 [⟨S16x256x64x256, demoTok (m ((c : Thread nD τ).loc main_arg1)) (m ((c : Thread nD τ).loc main_arg3)) (m ((c : Thread nD τ).loc main_arg8)) (m ((c : Thread nD τ).loc main_arg9))⟩,
          ⟨S16x256x1x256, broadcastInDim S16x256x1x256 ![0, 1, 3] bcast_S16x256x256_S16x256x1x256_0_1_3 (actTok (m ((c : Thread nD τ).loc main_arg2)) (m ((c : Thread nD τ).loc main_arg6)) (m ((c : Thread nD τ).loc main_arg7)))⟩]
          concatenates_S16x256x64x256_S16x256x1x256_S16x256x65x256_d2)
        transposes_S16x256x65x256_S256x16x65x256_1_0_2_3) shapeCasts_S256x16x65x256_S256x1040x256 := by
  after_results
  rw [W6_v8 m ρ c, W6_v13 m ρ c]
  rfl

theorem last_v10 (c : Dev nD) : StableHlo.after lastOps (W6 m ρ c) (Proc.devRef .tc main_v10)
    = curTok (m ((c : Thread nD τ).loc main_arg1)) (m ((c : Thread nD τ).loc main_arg3)) (m ((c : Thread nD τ).loc main_arg8)) (m ((c : Thread nD τ).loc main_arg9)) := by
  after_results
  rw [W6_v10 m ρ c]

/-- The result buffer at the end of the run. -/
theorem W7_v20 (c : Dev nD) : W7 m ρ c (Proc.devRef .tc main_v20)
    = seqOf (instrTok (m ((c : Thread nD τ).loc main_arg0)) (m ((c : Thread nD τ).loc main_arg4)) (m ((c : Thread nD τ).loc main_arg5))) (demoTok (m ((c : Thread nD τ).loc main_arg1)) (m ((c : Thread nD τ).loc main_arg3)) (m ((c : Thread nD τ).loc main_arg8)) (m ((c : Thread nD τ).loc main_arg9)))
        (actTok (m ((c : Thread nD τ).loc main_arg2)) (m ((c : Thread nD τ).loc main_arg6)) (m ((c : Thread nD τ).loc main_arg7))) (curTok (m ((c : Thread nD τ).loc main_arg1)) (m ((c : Thread nD τ).loc main_arg3)) (m ((c : Thread nD τ).loc main_arg8)) (m ((c : Thread nD τ).loc main_arg9))) := by
  show StableHlo.after hostOps3 (W6 m ρ c) (Proc.devRef .tc main_v20) = _
  simp only [StableHlo.after_cons, StableHlo.after_nil]
  rw [StableHlo.nary_result]
  show concatenate S256x1105x256 1 [⟨S256x1x256, StableHlo.after lastOps (W6 m ρ c) (Proc.devRef .tc main_v19)⟩,
    ⟨S256x1040x256, StableHlo.after lastOps (W6 m ρ c) (Proc.devRef .tc main_v18)⟩,
    ⟨S256x64x256, StableHlo.after lastOps (W6 m ρ c) (Proc.devRef .tc main_v10)⟩]
    concatenates_S256x1x256_S256x1040x256_S256x64x256_S256x1105x256_d1 = _
  rw [last_v19 m ρ c, last_v18 m ρ c, last_v10 m ρ c]
  rfl

/-- The run, read: every weakly fair execution of @main terminates with the result at the assembly of the four pieces
    of the argument arrays, the arguments unchanged. -/
theorem run_value : θ_run defs (onTc (τ := τ) (main (F := Ideal))) ⟨m, fun _ => 0, ρ⟩ (fun r => ∀ c : Dev nD,
      r.2.mem ((c.tc : Thread nD τ).loc main_v20)
        = seqOf (instrTok (m ((c : Thread nD τ).loc main_arg0)) (m ((c : Thread nD τ).loc main_arg4)) (m ((c : Thread nD τ).loc main_arg5))) (demoTok (m ((c : Thread nD τ).loc main_arg1)) (m ((c : Thread nD τ).loc main_arg3)) (m ((c : Thread nD τ).loc main_arg8)) (m ((c : Thread nD τ).loc main_arg9)))
            (actTok (m ((c : Thread nD τ).loc main_arg2)) (m ((c : Thread nD τ).loc main_arg6)) (m ((c : Thread nD τ).loc main_arg7))) (curTok (m ((c : Thread nD τ).loc main_arg1)) (m ((c : Thread nD τ).loc main_arg3)) (m ((c : Thread nD τ).loc main_arg8)) (m ((c : Thread nD τ).loc main_arg9)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_v20 (by decide))).trans (W7_v20 m ρ c),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c)⟩)
    (run_all m ρ)

end Cert.KernelIdeal.Lin

end
-- ==== Proof.Bridge.lean ====
/-
  The two programs compute one function. Both end with the same assembly of four pieces (the instruction tokens, the
  demonstrations' object tokens, the action tokens, the current object tokens), so it is enough that the pieces agree,
  index by index, over the extended reals:

    * the kernel's instruction tokens are `lin` of the rows, the weight and the bias as a row; the reference's are
      the product plus the bias broadcast: the same sum at every (p, q);
    * the kernel flattens the demonstrations' object rows, stacks them on the flattened current object rows, applies
      `lin` once, and cuts the result back. Row (d·256 + b)·64 + n of the stack is object row (d, b, n) of the
      demonstrations, and row 262144 + b·64 + n is object row (b, n) of the current objects, so each cut, re-laid,
      is the reference's product of that group by the same weight plus the same bias;
    * the action rows likewise: row d·256 + b of the flattened rows is row (d, b).

  No law beyond reading sums at an index is used: neither side regroups a sum.
-/
import proofs.«168344_j76063870812687_1_alg».proof.Proof.KI.Final
import proofs.«168344_j76063870812687_1_alg».proof.Proof.Gen.ReferenceIdeal.Read
import Idealize.ShloMosaic.Lib.Pipeline.Value
import Idealize.ShloMosaic.Lib.ValueIdx

set_option maxRecDepth 16384

noncomputable section

namespace Cert.Bridge

open Cert.KernelIdeal Cert.KernelIdeal.Lin
open Idealize.ShloMosaic Idealize.ShloMosaic.ValueIdx

/-! ## Rows of the flattened arrays -/

/-- A bias as a row, at column q. -/
theorem row_apply (b : Vec Ideal S256 .f32) (q : Fin 256) : row b (ix2 (0 : Fin 1) q) = b (ix1 q) := by
  unfold row
  refine shapeCast_apply b _ (ix2 (0 : Fin 1) q) (ix1 q) ?_
  rw [Shape.rowMajor_val_one, Shape.rowMajor_val_two]
  show q.val = 0 * 256 + q.val
  omega

/-- Row (d·256 + b)·64 + n of the stacked object rows is the demonstrations' object row (d, b, n). -/
theorem objRows_demo (x1 : Vec Ideal S16x256x64x256 .f32) (x3 : Vec Ideal S256x64x256 .f32) (d : Fin 16) (b : Fin 256) (n : Fin 64)
    (k : Fin 256) (r : Fin 278528) (hr : r.val = (d.val * 256 + b.val) * 64 + n.val) :
    objRows x1 x3 (ix2 r k) = x1 (ix4 d b n k) := by
  have hd := d.isLt; have hb := b.isLt; have hn := n.isLt
  have hlt : (d.val * 256 + b.val) * 64 + n.val < 262144 := by omega
  unfold objRows
  refine (concatenate_pair_apply_left (t := S278528x256) (s₁ := S262144x256) (s₂ := S16384x256) (0 : Fin 2) _ _ _ (ix2 r k) rfl (ix2 ⟨(d.val * 256 + b.val) * 64 + n.val, hlt⟩ k) ?_).trans ?_
  · intro a
    match a with
    | ⟨0, _⟩ => exact hr.symm
    | ⟨1, _⟩ => rfl
  refine shapeCast_apply x1 _ _ (ix4 d b n k) ?_
  rw [Shape.rowMajor_val_four, Shape.rowMajor_val_two]
  first | rfl | omega

/-- Row 262144 + b·64 + n of the stacked object rows is the current object row (b, n). -/
theorem objRows_cur (x1 : Vec Ideal S16x256x64x256 .f32) (x3 : Vec Ideal S256x64x256 .f32) (b : Fin 256) (n : Fin 64)
    (k : Fin 256) (r : Fin 278528) (hr : r.val = 262144 + (b.val * 64 + n.val)) :
    objRows x1 x3 (ix2 r k) = x3 (ix3 b n k) := by
  have hb := b.isLt; have hn := n.isLt
  have hlt : b.val * 64 + n.val < 16384 := by omega
  unfold objRows
  refine (concatenate_pair_apply_right (t := S278528x256) (s₁ := S262144x256) (s₂ := S16384x256) (0 : Fin 2) _ _ _ (ix2 r k) rfl rfl (ix2 ⟨b.val * 64 + n.val, hlt⟩ k) ?_ ?_).trans ?_
  · intro a ha
    match a, ha with
    | ⟨0, _⟩, ha => exact absurd rfl ha
    | ⟨1, _⟩, _ => rfl
  · show b.val * 64 + n.val + 262144 = r.val
    omega
  refine shapeCast_apply x3 _ _ (ix3 b n k) ?_
  rw [Shape.rowMajor_val_three, Shape.rowMajor_val_two]
  first | rfl | omega

/-- Row d·256 + b of the flattened action rows is action row (d, b). -/
theorem actRows_apply (x2 : Vec Ideal S16x256x7 .f32) (d : Fin 16) (b : Fin 256) (k : Fin 7) (r : Fin 4096) (hr : r.val = d.val * 256 + b.val) :
    actRows x2 (ix2 r k) = x2 (ix3 d b k) := by
  unfold actRows
  refine shapeCast_apply x2 _ _ (ix3 d b k) ?_
  rw [Shape.rowMajor_val_three, Shape.rowMajor_val_two]
  show (d.val * 256 + b.val) * 7 + k.val = r.val * 7 + k.val
  rw [hr]

/-! ## The four pieces -/

theorem instr_eq (x0 : Vec Ideal S256x768 .f32) (x4 : Vec Ideal S768x256 .f32) (x5 : Vec Ideal S256 .f32) :
    instrTok x0 x4 x5 = Cert.ReferenceIdeal.Read.val_main_v3 (F := Ideal) x0 x4 x5 := by
  funext i
  obtain ⟨p, q, rfl⟩ : ∃ (p : Fin 256) (q : Fin 256), i = ix2 p q := ⟨i 0, i 1, eq_ix2 i⟩
  rw [Cert.ReferenceIdeal.Read.val_main_v3_apply, Cert.ReferenceIdeal.Read.val_main_v0_apply, Cert.ReferenceIdeal.Read.val_main_v2_apply, Cert.ReferenceIdeal.Read.val_main_v1_apply]
  unfold instrTok
  refine (Cert.Spec.lin_eq_of _ _ _ _ p q rfl rfl).trans ?_
  show _ = (_ : EReal) + _
  refine congrArg₂ (· + ·) (Finset.sum_congr rfl fun k _ => congrArg₂ (· * ·) (congrArg x0 ?_) (congrArg x4 ?_))
    ((row_apply x5 q).trans (congrArg x5 ?_))
  · funext a; match a with | ⟨0, _⟩ => rfl | ⟨1, _⟩ => rfl
  · funext a; match a with | ⟨0, _⟩ => rfl | ⟨1, _⟩ => rfl
  · funext a; match a with | ⟨0, _⟩ => rfl

theorem demo_eq (x1 : Vec Ideal S16x256x64x256 .f32) (x3 : Vec Ideal S256x64x256 .f32) (x8 : Vec Ideal S256x256 .f32) (x9 : Vec Ideal S256 .f32) :
    demoTok x1 x3 x8 x9 = Cert.ReferenceIdeal.Read.val_main_v7 (F := Ideal) x1 x8 x9 := by
  funext i
  obtain ⟨d, b, n, t, rfl⟩ : ∃ (d : Fin 16) (b : Fin 256) (n : Fin 64) (t : Fin 256), i = ix4 d b n t := ⟨i 0, i 1, i 2, i 3, eq_ix4 i⟩
  rw [Cert.ReferenceIdeal.Read.val_main_v7_apply, Cert.ReferenceIdeal.Read.val_main_v4_apply, Cert.ReferenceIdeal.Read.val_main_v6_apply, Cert.ReferenceIdeal.Read.val_main_v5_apply]
  have hd := d.isLt; have hb := b.isLt; have hn := n.isLt
  have hlt : (d.val * 256 + b.val) * 64 + n.val < 262144 := by omega
  have hLT : (d.val * 256 + b.val) * 64 + n.val < 278528 := by omega
  unfold demoTok
  refine (shapeCast_apply _ _ (ix4 d b n t) (ix2 ⟨(d.val * 256 + b.val) * 64 + n.val, hlt⟩ t) ?_).trans ?_
  · rw [Shape.rowMajor_val_two, Shape.rowMajor_val_four]
    first | rfl | omega
  refine (extractStridedSlice_apply _ _ _ (ix2 ⟨(d.val * 256 + b.val) * 64 + n.val, hlt⟩ t) (ix2 ⟨(d.val * 256 + b.val) * 64 + n.val, hLT⟩ t) ?_).trans ?_
  · intro a
    match a with
    | ⟨0, _⟩ => show (d.val * 256 + b.val) * 64 + n.val = 0 + ((d.val * 256 + b.val) * 64 + n.val); omega
    | ⟨1, _⟩ => show t.val = 0 + t.val; omega
  unfold objTok
  refine (Cert.Spec.lin_eq_of _ _ _ _ ⟨(d.val * 256 + b.val) * 64 + n.val, hLT⟩ t rfl rfl).trans ?_
  show _ = (_ : EReal) + _
  refine congrArg₂ (· + ·) (Finset.sum_congr rfl fun k _ => congrArg₂ (· * ·)
      ((objRows_demo x1 x3 d b n k ⟨(d.val * 256 + b.val) * 64 + n.val, hLT⟩ rfl).trans (congrArg x1 ?_)) (congrArg x8 ?_))
    ((row_apply x9 t).trans (congrArg x9 ?_))
  · funext a; match a with | ⟨0, _⟩ => rfl | ⟨1, _⟩ => rfl | ⟨2, _⟩ => rfl | ⟨3, _⟩ => rfl
  · funext a; match a with | ⟨0, _⟩ => rfl | ⟨1, _⟩ => rfl
  · funext a; match a with | ⟨0, _⟩ => rfl

theorem cur_eq (x1 : Vec Ideal S16x256x64x256 .f32) (x3 : Vec Ideal S256x64x256 .f32) (x8 : Vec Ideal S256x256 .f32) (x9 : Vec Ideal S256 .f32) :
    curTok x1 x3 x8 x9 = Cert.ReferenceIdeal.Read.val_main_v15 (F := Ideal) x3 x8 x9 := by
  funext i
  obtain ⟨b, n, t, rfl⟩ : ∃ (b : Fin 256) (n : Fin 64) (t : Fin 256), i = ix3 b n t := ⟨i 0, i 1, i 2, eq_ix3 i⟩
  rw [Cert.ReferenceIdeal.Read.val_main_v15_apply, Cert.ReferenceIdeal.Read.val_main_v12_apply, Cert.ReferenceIdeal.Read.val_main_v14_apply, Cert.ReferenceIdeal.Read.val_main_v13_apply]
  have hb := b.isLt; have hn := n.isLt
  have hlt : b.val * 64 + n.val < 16384 := by omega
  have hLT : 262144 + (b.val * 64 + n.val) < 278528 := by omega
  unfold curTok
  refine (shapeCast_apply _ _ (ix3 b n t) (ix2 ⟨b.val * 64 + n.val, hlt⟩ t) ?_).trans ?_
  · rw [Shape.rowMajor_val_two, Shape.rowMajor_val_three]
    first | rfl | omega
  refine (extractStridedSlice_apply _ _ _ (ix2 ⟨b.val * 64 + n.val, hlt⟩ t) (ix2 ⟨262144 + (b.val * 64 + n.val), hLT⟩ t) ?_).trans ?_
  · intro a
    match a with
    | ⟨0, _⟩ => rfl
    | ⟨1, _⟩ => show t.val = 0 + t.val; omega
  unfold objTok
  refine (Cert.Spec.lin_eq_of _ _ _ _ ⟨262144 + (b.val * 64 + n.val), hLT⟩ t rfl rfl).trans ?_
  show _ = (_ : EReal) + _
  refine congrArg₂ (· + ·) (Finset.sum_congr rfl fun k _ => congrArg₂ (· * ·)
      ((objRows_cur x1 x3 b n k ⟨262144 + (b.val * 64 + n.val), hLT⟩ rfl).trans (congrArg x3 ?_)) (congrArg x8 ?_))
    ((row_apply x9 t).trans (congrArg x9 ?_))
  · funext a; match a with | ⟨0, _⟩ => rfl | ⟨1, _⟩ => rfl | ⟨2, _⟩ => rfl
  · funext a; match a with | ⟨0, _⟩ => rfl | ⟨1, _⟩ => rfl
  · funext a; match a with | ⟨0, _⟩ => rfl

theorem act_eq (x2 : Vec Ideal S16x256x7 .f32) (x6 : Vec Ideal S7x256 .f32) (x7 : Vec Ideal S256 .f32) :
    actTok x2 x6 x7 = Cert.ReferenceIdeal.Read.val_main_v11 (F := Ideal) x2 x6 x7 := by
  funext i
  obtain ⟨d, b, t, rfl⟩ : ∃ (d : Fin 16) (b : Fin 256) (t : Fin 256), i = ix3 d b t := ⟨i 0, i 1, i 2, eq_ix3 i⟩
  rw [Cert.ReferenceIdeal.Read.val_main_v11_apply, Cert.ReferenceIdeal.Read.val_main_v8_apply, Cert.ReferenceIdeal.Read.val_main_v10_apply, Cert.ReferenceIdeal.Read.val_main_v9_apply]
  have hd := d.isLt; have hb := b.isLt
  have hlt : d.val * 256 + b.val < 4096 := by omega
  unfold actTok
  refine (shapeCast_apply _ _ (ix3 d b t) (ix2 ⟨d.val * 256 + b.val, hlt⟩ t) ?_).trans ?_
  · rw [Shape.rowMajor_val_two, Shape.rowMajor_val_three]
    first | rfl | omega
  refine (Cert.Spec.lin_eq_of _ _ _ _ ⟨d.val * 256 + b.val, hlt⟩ t rfl rfl).trans ?_
  show _ = (_ : EReal) + _
  refine congrArg₂ (· + ·) (Finset.sum_congr rfl fun k _ => congrArg₂ (· * ·)
      ((actRows_apply x2 d b k ⟨d.val * 256 + b.val, hlt⟩ rfl).trans (congrArg x2 ?_)) (congrArg x6 ?_))
    ((row_apply x7 t).trans (congrArg x7 ?_))
  · funext a; match a with | ⟨0, _⟩ => rfl | ⟨1, _⟩ => rfl | ⟨2, _⟩ => rfl
  · funext a; match a with | ⟨0, _⟩ => rfl | ⟨1, _⟩ => rfl
  · funext a; match a with | ⟨0, _⟩ => rfl

/-! ## The whole result -/

/-- The reference's result is the same assembly of its four pieces. -/
theorem ref_seq (x0 : Vec Ideal S256x768 .f32) (x1 : Vec Ideal S16x256x64x256 .f32) (x2 : Vec Ideal S16x256x7 .f32) (x3 : Vec Ideal S256x64x256 .f32)
    (x4 : Vec Ideal S768x256 .f32) (x5 : Vec Ideal S256 .f32) (x6 : Vec Ideal S7x256 .f32) (x7 : Vec Ideal S256 .f32) (x8 : Vec Ideal S256x256 .f32)
    (x9 : Vec Ideal S256 .f32) :
    Cert.ReferenceIdeal.Read.val_main_v21 (F := Ideal) x0 x1 x2 x3 x4 x5 x6 x7 x8 x9
      = seqOf (Cert.ReferenceIdeal.Read.val_main_v3 (F := Ideal) x0 x4 x5) (Cert.ReferenceIdeal.Read.val_main_v7 (F := Ideal) x1 x8 x9)
          (Cert.ReferenceIdeal.Read.val_main_v11 (F := Ideal) x2 x6 x7) (Cert.ReferenceIdeal.Read.val_main_v15 (F := Ideal) x3 x8 x9) := rfl

/-- The kernel's result is the reference's. -/
theorem result_eq (x0 : Vec Ideal S256x768 .f32) (x1 : Vec Ideal S16x256x64x256 .f32) (x2 : Vec Ideal S16x256x7 .f32) (x3 : Vec Ideal S256x64x256 .f32)
    (x4 : Vec Ideal S768x256 .f32) (x5 : Vec Ideal S256 .f32) (x6 : Vec Ideal S7x256 .f32) (x7 : Vec Ideal S256 .f32) (x8 : Vec Ideal S256x256 .f32)
    (x9 : Vec Ideal S256 .f32) :
    seqOf (instrTok x0 x4 x5) (demoTok x1 x3 x8 x9) (actTok x2 x6 x7) (curTok x1 x3 x8 x9)
      = Cert.ReferenceIdeal.Read.val_main_v21 (F := Ideal) x0 x1 x2 x3 x4 x5 x6 x7 x8 x9 := by
  rw [ref_seq, instr_eq, demo_eq, act_eq, cur_eq]

end Cert.Bridge

end
-- ==== Proof.lean ====
/-
  The certificate of a sequence builder: three linear projections x·w + b (of the instruction embedding, of all
  object embeddings, of the demonstrations' actions), each a pallas_call whose body truncates both operands to bf16,
  multiplies into a zero f32 accumulator and adds the bias row, with reshapes, a stack, two cuts, a transpose and
  two joins around them; against jnp's three products plus biases joined the same way.

  Frames. @main is seven items: four stretches of host operations and the three pallas_calls. Each pallas_call's
  body loads its three staged blocks whole and stores one whole block, so what it leaves in the output's staging
  buffer is one payload of the blocks it found; the pipeline's proof data are the arrays as the region finds them,
  and the launch over the seven segments ends with every unscoped buffer at a fold of the launch memory through
  the items. No item writes an argument array. Nothing in this depends on the float instance: the same argument is
  stated for any instance over each of the two programs' own definitions, and read at the words for the printed
  kernel and at the extended reals for its idealization (whose text is the same: the ledger is empty, so `preserves`
  states nothing).

  Value. Over the extended reals a change of float format is the identity and the matrix product into zero is the
  plain sum ∑ₖ x(p, k)·w(k, q), so each pallas_call leaves `lin x w b` of its arrays in its output (block t of the
  output is block t of that function, and the blocks cover the array). Following the host operations, the result is
  one assembly of four pieces; the reference's result is the same assembly of its four pieces, and the pieces agree
  index by index: flattening rows, stacking, projecting and cutting back is projecting each group. No sum is
  regrouped, so finiteness of the inputs is not used.
-/
import proofs.«168344_j76063870812687_1_alg».proof.Defs
import proofs.«168344_j76063870812687_1_alg».proof.Proof.Gen.Kernel
import proofs.«168344_j76063870812687_1_alg».proof.Proof.Gen.KernelIdeal
import proofs.«168344_j76063870812687_1_alg».proof.Proof.Gen.ReferenceIdeal
import proofs.«168344_j76063870812687_1_alg».proof.Proof.Gen.ReferenceIdeal.Run
import proofs.«168344_j76063870812687_1_alg».proof.Proof.Gen.ReferenceIdeal.Read
import proofs.«168344_j76063870812687_1_alg».proof.Proof.Gen.Pre_finite_inputs
import proofs.«168344_j76063870812687_1_alg».proof.Proof.K.Kept
import proofs.«168344_j76063870812687_1_alg».proof.Proof.KI.Final
import proofs.«168344_j76063870812687_1_alg».proof.Proof.Bridge
import Idealize.ShloMosaic.Adequacy
import Idealize.ShloMosaic.Init

noncomputable section

namespace Cert.Proof

open Idealize.ShloMosaic Idealize.SL.Sem

/-- The printed kernel runs and leaves its arguments unchanged. -/
theorem frame_k : Cert.frame_Kernel := fun m ρ _ => Cert.Kernel.Lin.frame m ρ

/-- So does its idealization. -/
theorem frame_ki : Cert.frame_KernelIdeal := fun m ρ _ => Cert.KernelIdeal.Lin.frame m ρ

/-- The reference is a line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both programs end with the assembly of the four pieces of the same
    arrays: the kernel's by its run read back, the reference's by its run and the agreement of the pieces. -/
theorem algebraic : Cert.algebraic_KernelIdeal_ReferenceIdeal := by
  intro m ρ m' ρ' _ hagree
  refine ⟨_, Cert.KernelIdeal.Lin.run_value m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9⟩ := hagree c
  rw [e0, e1, e2, e3, e4, e5, e6, e7, e8, e9]
  exact (Cert.ReferenceIdeal.Read.val_main_v21_eq _ _ _ _ _ _ _ _ _ _).trans (Cert.Bridge.result_eq _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
